-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S4096 : Shape := ⟨1, ![4096]⟩
abbrev S8192 : Shape := ⟨1, ![8192]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S4096 : S_.BroadcastsInDim S4096 (![] : Fin 0 → Fin S4096.rank)
  reducesTo_S4096_S_d0 : S4096.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg5 : IVec S8192 32) (main_v31 : IVec S_ 1) (main_v32 : IVec S8192 32) : IVec S_ 1 :=
  let main_v33 : IVec S8192 1 := cmpi .sge main_arg5 main_v32
  let main_c_13 : IVec S_ 1 := constantI S_ 1 1#1
  let main_v34 : IVec S_ 1 := (fun x v => Host.reduce IntOp.andi x v reducesTo_S8192_S_d0 h_S_) main_v33 main_c_13
  let main_v35 : IVec S_ 1 := andi main_v31 main_v34
  let main_c_14 : IVec S_ 32 := constantI S_ 32 1024#32
  let main_v36 : IVec S8192 32 := broadcastInDim S8192 ![] bcast_S_S8192 main_c_14
  let main_v37 : IVec S8192 1 := cmpi .slt main_arg5 main_v36
  let main_c_15 : IVec S_ 1 := constantI S_ 1 1#1
  let main_v38 : IVec S_ 1 := (fun x v => Host.reduce IntOp.andi x v reducesTo_S8192_S_d0 h_S_) main_v37 main_c_15
  let main_v39 : IVec S_ 1 := andi main_v35 main_v38
  main_v39

def fn_part1 {F : FTy → Type} [FloatOps F] (main_arg0 : IVec S16384 32) (main_arg5 : IVec S8192 32) (main_arg6 : FVec F S8192 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S8192 .f32 := Host.absf main_arg6
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg0 main_v24
  let main_c_9 : IVec S_ 1 := constantI S_ 1 1#1
  let main_v26 : IVec S_ 1 := (fun x v => Host.reduce IntOp.andi x v reducesTo_S16384_S_d0 h_S_) main_v25 main_c_9
  let main_v27 : IVec S_ 1 := andi main_v23 main_v26
  let main_c_10 : IVec S_ 32 := constantI S_ 32 8192#32
  let main_v28 : IVec S16384 32 := broadcastInDim S16384 ![] bcast_S_S16384 main_c_10
  let main_v29 : IVec S16384 1 := cmpi .slt main_arg0 main_v28
  let main_c_11 : IVec S_ 1 := constantI S_ 1 1#1
  let main_v30 : IVec S_ 1 := (fun x v => Host.reduce IntOp.andi x v reducesTo_S16384_S_d0 h_S_) main_v29 main_c_11
  let main_v31 : IVec S_ 1 := andi main_v27 main_v30
  let main_c_12 : IVec S_ 32 := constantI S_ 32 0#32
  let main_v32 : IVec S8192 32 := broadcastInDim S8192 ![] bcast_S_S8192 main_c_12
  fn_part2 (F := F) main_arg5 main_v31 main_v32

def fn {F : FTy → Type} [FloatOps F] (main_arg0 : IVec S16384 32) (main_arg1 : FVec F S16384 .f32) (main_arg2 : FVec F S16384 .f32) (main_arg3 : FVec F S16384 .f32) (main_arg4 : FVec F S4096 .f32) (main_arg5 : IVec S8192 32) (main_arg6 : FVec F S8192 .f32) : IVec S_ 1 :=
  let main_v0 : FVec F S16384 .f32 := Host.absf main_arg1
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg0 main_arg5 main_arg6 main_v13 main_v16
-- ==== Kernel.lean ====
abbrev S16384 : Shape := ⟨1, ![16384]⟩
abbrev S4096 : Shape := ⟨1, ![4096]⟩
abbrev S8192 : Shape := ⟨1, ![8192]⟩
abbrev S_ : Shape := ⟨0, ![]⟩
abbrev S16384x1 : Shape := ⟨2, ![16384, 1]⟩
abbrev S4096x1 : Shape := ⟨2, ![4096, 1]⟩
abbrev S1x16384 : Shape := ⟨2, ![1, 16384]⟩
abbrev S4096x1024 : Shape := ⟨2, ![4096, 1024]⟩
abbrev S512x1 : Shape := ⟨2, ![512, 1]⟩
abbrev S1x2048 : Shape := ⟨2, ![1, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 61
  | .vmem => 15
  | .smem => 0
  | _ => 0

abbrev bufTy : (tb : Table) → Fin (tcTables nBuf tb) → BufTy
  | .hbm, ⟨0, _⟩ => ⟨S16384, .i32⟩
  | .hbm, ⟨1, _⟩ => ⟨S16384, .f32⟩
  | .hbm, ⟨2, _⟩ => ⟨S16384, .f32⟩
  | .hbm, ⟨3, _⟩ => ⟨S16384, .f32⟩
  | .hbm, ⟨4, _⟩ => ⟨S4096, .f32⟩
  | .hbm, ⟨5, _⟩ => ⟨S8192, .i32⟩
  | .hbm, ⟨6, _⟩ => ⟨S8192, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S16384, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S4096x1, .f32⟩
  | .hbm, ⟨55, _⟩ => ⟨S1x16384, .f32⟩
  | .hbm, ⟨56, _⟩ => ⟨S1x16384, .f32⟩
  | .hbm, ⟨57, _⟩ => ⟨S1x16384, .f32⟩
  | .hbm, ⟨58, _⟩ => ⟨S1x16384, .i32⟩
  | .hbm, ⟨59, _⟩ => ⟨S1x16384, .f32⟩
  | .hbm, ⟨60, _⟩ => ⟨S4096x1024, .f32⟩
  | .local _ .vmem, ⟨0, _⟩ => ⟨S512x1, .f32⟩
  | .local _ .vmem, ⟨1, _⟩ => ⟨S512x1, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .i32⟩
  | .local _ .vmem, ⟨9, _⟩ => ⟨S1x2048, .i32⟩
  | .local _ .vmem, ⟨10, _⟩ => ⟨S1x2048, .f32⟩
  | .local _ .vmem, ⟨11, _⟩ => ⟨S1x2048, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v5 : Ref sig .tc := ⟨.hbm, 21, rfl⟩
abbrev main_c_3 : Ref sig .tc := ⟨.hbm, 22, rfl⟩
abbrev main_v6 : Ref sig .tc := ⟨.hbm, 23, rfl⟩
abbrev main_v7 : Ref sig .tc := ⟨.hbm, 24, rfl⟩
abbrev main_c_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_call1_v0 : Ref sig .tc := ⟨.hbm, 32, rfl⟩
abbrev main_v13 : Ref sig .tc := ⟨.hbm, 33, rfl⟩
abbrev main_c_6 : Ref sig .tc := ⟨.hbm, 34, rfl⟩
abbrev main_c_7 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v14 : Ref sig .tc := ⟨.hbm, 41, rfl⟩
abbrev main_c_8 : Ref sig .tc := ⟨.hbm, 42, rfl⟩
abbrev main_v15 : Ref sig .tc := ⟨.hbm, 43, rfl⟩
abbrev main_v16 : Ref sig .tc := ⟨.hbm, 44, rfl⟩
abbrev main_c_9 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst : Ref sig .tc := ⟨.hbm, 51, rfl⟩
abbrev main_call3_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  shapeCasts_S4096_S4096x1 : S4096.ShapeCasts S4096x1
  shapeCasts_S16384_S1x16384 : S16384.ShapeCasts S1x16384
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  broadcasts_S512x1_S512x2048 : S512x1.Broadcasts S512x2048
  bitsLt_bf16_f32 : FTy.bits .bf16 < FTy.bits .f32
  iota_S1024x2048_d0_w32 : S1024x2048.Iotas .tc 32 [0]
  broadcasts_S1x2048_S1024x2048 : S1x2048.Broadcasts S1024x2048
  gather_S8192_S16384x1_S16384_n_0_n_n_0_1_1_wf : GatherDims.WF S8192 S16384x1 S16384 [] [0] [] [0] [] 1 ![1]
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .f32 = 32 ∨ (Rect.block (s := S4096x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x16384.size a
  hwx0_4 : ∀ i : grid0.Coords, EltTy.bits .i32 = 32 ∨ (Rect.block (s := S1x16384) S1x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x16384.size a
  hwx0_5 : ∀ i : grid0.Coords, EltTy.bits .f32 = 32 ∨ (Rect.block (s := S1x16384) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .f32 = 32 ∨ (Rect.block (s := S4096x1024) S512x1024.size (cc0_transform_6 i) (hinb0_6 i)).WholeWords (EltTy.packing .f32)

variable [Facts₀]

def gather_S8192_S16384x1_S16384_n_0_n_n_0_1_1 : GatherDims S8192 S16384x1 S16384 where
  offsetDims := []
  collapsedSliceDims := [0]
  operandBatchingDims := []
  startIndicesBatchingDims := []
  startIndexMap := [0]
  indexVectorDim := 1
  sliceSizes := ![1]
  wf := gather_S8192_S16384x1_S16384_n_0_n_n_0_1_1_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v23) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384 : Shape := ⟨1, ![16384]⟩
abbrev S4096 : Shape := ⟨1, ![4096]⟩
abbrev S8192 : Shape := ⟨1, ![8192]⟩
abbrev S1x16384 : Shape := ⟨2, ![1, 16384]⟩
abbrev S4096x1 : Shape := ⟨2, ![4096, 1]⟩
abbrev S4096x16384 : Shape := ⟨2, ![4096, 16384]⟩
abbrev S_ : Shape := ⟨0, ![]⟩
abbrev S16384x1 : Shape := ⟨2, ![16384, 1]⟩
abbrev S4096x8192 : Shape := ⟨2, ![4096, 8192]⟩
abbrev S1x8192 : Shape := ⟨2, ![1, 8192]⟩
abbrev S8192x4096 : Shape := ⟨2, ![8192, 4096]⟩
abbrev S1024x4096 : Shape := ⟨2, ![1024, 4096]⟩
abbrev S8192x1 : Shape := ⟨2, ![8192, 1]⟩
abbrev S4096x1024 : Shape := ⟨2, ![4096, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .f32⟩
  | .hbm, ⟨2, _⟩ => ⟨S16384, .f32⟩
  | .hbm, ⟨3, _⟩ => ⟨S16384, .f32⟩
  | .hbm, ⟨4, _⟩ => ⟨S4096, .f32⟩
  | .hbm, ⟨5, _⟩ => ⟨S8192, .i32⟩
  | .hbm, ⟨6, _⟩ => ⟨S8192, .f32⟩
  | .hbm, ⟨7, _⟩ => ⟨S1x16384, .f32⟩
  | .hbm, ⟨8, _⟩ => ⟨S4096x1, .f32⟩
  | .hbm, ⟨9, _⟩ => ⟨S4096x16384, .f32⟩
  | .hbm, ⟨10, _⟩ => ⟨S4096x16384, .f32⟩
  | .hbm, ⟨11, _⟩ => ⟨S4096x16384, .i1⟩
  | .hbm, ⟨12, _⟩ => ⟨S4096x1, .f32⟩
  | .hbm, ⟨13, _⟩ => ⟨S1x16384, .f32⟩
  | .hbm, ⟨14, _⟩ => ⟨S4096x16384, .f32⟩
  | .hbm, ⟨15, _⟩ => ⟨S4096x16384, .f32⟩
  | .hbm, ⟨16, _⟩ => ⟨S4096x16384, .i1⟩
  | .hbm, ⟨17, _⟩ => ⟨S4096x16384, .i1⟩
  | .hbm, ⟨18, _⟩ => ⟨S1x16384, .f32⟩
  | .hbm, ⟨19, _⟩ => ⟨S_, .f32⟩
  | .hbm, ⟨20, _⟩ => ⟨S4096x16384, .f32⟩
  | .hbm, ⟨21, _⟩ => ⟨S4096x16384, .f32⟩
  | .hbm, ⟨22, _⟩ => ⟨S4096x16384, .f32⟩
  | .hbm, ⟨23, _⟩ => ⟨S_, .f32⟩
  | .hbm, ⟨24, _⟩ => ⟨S8192, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S4096x8192, .f32⟩
  | .hbm, ⟨34, _⟩ => ⟨S4096x8192, .f32⟩
  | .hbm, ⟨35, _⟩ => ⟨S1x8192, .f32⟩
  | .hbm, ⟨36, _⟩ => ⟨S4096x8192, .f32⟩
  | .hbm, ⟨37, _⟩ => ⟨S4096x8192, .f32⟩
  | .hbm, ⟨38, _⟩ => ⟨S8192x4096, .f32⟩
  | .hbm, ⟨39, _⟩ => ⟨S_, .f32⟩
  | .hbm, ⟨40, _⟩ => ⟨S1024x4096, .f32⟩
  | .hbm, ⟨41, _⟩ => ⟨S8192x1, .i32⟩
  | .hbm, ⟨42, _⟩ => ⟨S1024x4096, .f32⟩
  | .hbm, ⟨43, _⟩ => ⟨S4096x1024, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S4096_S4096x1_0 : S4096.BroadcastsInDim S4096x1 (![0] : Fin 1 → Fin S4096x1.rank)
  bcast_S1x16384_S4096x16384_0_1 : S1x16384.BroadcastsInDim S4096x16384 (![0, 1] : Fin 2 → Fin S4096x16384.rank)
  bcast_S4096x1_S4096x16384_0_1 : S4096x1.BroadcastsInDim S4096x16384 (![0, 1] : Fin 2 → Fin S4096x16384.rank)
  bcast_S_S4096x16384 : S_.BroadcastsInDim S4096x16384 (![] : Fin 0 → Fin S4096x16384.rank)
  bcast_S_S8192 : S_.BroadcastsInDim S8192 (![] : Fin 0 → Fin S8192.rank)
  bcast_S_S16384 : S_.BroadcastsInDim S16384 (![] : Fin 0 → Fin S16384.rank)
  bcast_S16384_S16384x1_0 : S16384.BroadcastsInDim S16384x1 (![0] : Fin 1 → Fin S16384x1.rank)
  bcast_S8192_S4096x8192_1 : S8192.BroadcastsInDim S4096x8192 (![1] : Fin 1 → Fin S4096x8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  transposes_S4096x8192_S8192x4096_1_0 : S4096x8192.Transposes [1, 0] S8192x4096
  bcast_S_S1024x4096 : S_.BroadcastsInDim S1024x4096 (![] : Fin 0 → Fin S1024x4096.rank)
  bcast_S8192_S8192x1_0 : S8192.BroadcastsInDim S8192x1 (![0] : Fin 1 → Fin S8192x1.rank)
  transposes_S1024x4096_S4096x1024_1_0 : S1024x4096.Transposes [1, 0] S4096x1024
  scatter_S4096x8192_S16384x1_S4096x16384_0_1_1_1_wf : ScatterDims.WF S4096x8192 S16384x1 S4096x16384 [0] [1] [1] 1
  scatter_S1024x4096_S8192x1_S8192x4096_1_0_0_1_wf : ScatterDims.WF S1024x4096 S8192x1 S8192x4096 [1] [0] [0] 1

variable [Facts₀]

def scatter_S4096x8192_S16384x1_S4096x16384_0_1_1_1 : ScatterDims S4096x8192 S16384x1 S4096x16384 where
  updateWindowDims := [0]
  insertedWindowDims := [1]
  scatterDimsToOperandDims := [1]
  indexVectorDim := 1
  wf := scatter_S4096x8192_S16384x1_S4096x16384_0_1_1_1_wf
def scatter_S1024x4096_S8192x1_S8192x4096_1_0_0_1 : ScatterDims S1024x4096 S8192x1 S8192x4096 where
  updateWindowDims := [1]
  insertedWindowDims := [0]
  scatterDimsToOperandDims := [0]
  indexVectorDim := 1
  wf := scatter_S1024x4096_S8192x1_S8192x4096_1_0_0_1_wf

class Facts : Prop extends Facts₀ where

variable [Facts]
-- ==== Proof.Spec.lean ====
/-
  The specification shared by the two programs, over plain coordinate functions.

  An event `e` is ACTIVE at time `t` when `starttime e ≤ t0 t` and `t0 t < endtime e`; its masked rate is its rate when
  active and zero otherwise (`mrate`, spelt with the comparison and selection operations both programs print, so
  that neither side has to evaluate the comparison). The kernel weights event `e` into group `g` by `we e` when the
  event's group word `ge e` is the word of `g` and by zero otherwise (`hot`), and sums over the events (`G`).
  The reference first adds the masked rates of the events of each source `s` (`X`: the events whose index, wrapped
  once when negative as array indexing does, reads `s` as a signed word), multiplies by the source's weight, and adds
  the sources of each group (`R`: the sources whose group word reads `g` as a signed word).
-/
import Idealize.ShloMosaic.PureOps.Ideal
import Idealize.ShloMosaic.Lib.ValueIdx
import Idealize.ShloMosaic.Lib.ValueIdxRank1

noncomputable section

namespace Cert.Spec

open Idealize.ShloMosaic

/-- The masked rate of one event at one time: the rate `r` when `st ≤ t0 < et`, zero otherwise. -/
def mrate (st t0 et r : EReal) : EReal :=
  Scalar.select (IntOp.andi (FloatOps.cmpf (F := Ideal) (φ := .f32) .ole st t0) (FloatOps.cmpf (F := Ideal) (φ := .f32) .olt t0 et)) r (0 : EReal)

/-- The weight event data `(ge, we)` puts on group `g`: `we` when the group word is `g`'s, zero otherwise. -/
def hot (g : Fin 1024) (ge : BitVec 32) (we : EReal) : EReal :=
  Scalar.select (IntOp.cmpi .eq (BitVec.ofNat 32 g.val) ge) we (0 : EReal)

/-- Entry `(t, g)` of the result in the kernel's arrangement: the sum over all events of masked rate times group weight. -/
def G (t0 : Fin 4096 → EReal) (st et rate : Fin 16384 → EReal) (ge : Fin 16384 → BitVec 32) (we : Fin 16384 → EReal)
    (t : Fin 4096) (g : Fin 1024) : EReal :=
  ∑ e : Fin 16384, mrate (st e) (t0 t) (et e) (rate e) * hot g (ge e) (we e)

/-- An index word as array indexing reads it: a negative word has the axis length 8192 added once. -/
def wrap (i : BitVec 32) : BitVec 32 := Scalar.select (IntOp.cmpi .slt i 0#32) (IntOp.addi i 8192#32) i

/-- The source an in-range index word names (the word's value, reduced so that the definition is total). -/
def src (i : BitVec 32) : Fin 8192 := ⟨i.toNat % 8192, Nat.mod_lt _ (by decide)⟩

/-- Entry `(t, s)` of the reference's per-source sums: zero plus the masked rates of the events landing on source `s`. -/
def X (t0 : Fin 4096 → EReal) (st et rate : Fin 16384 → EReal) (idx : Fin 16384 → BitVec 32) (t : Fin 4096) (s : Fin 8192) : EReal :=
  0 + ∑ e ∈ Finset.univ.filter (fun e : Fin 16384 => (wrap (idx e)).toInt = (s.val : Int)), mrate (st e) (t0 t) (et e) (rate e)

/-- Entry `(t, g)` of the result in the reference's arrangement: zero plus the weighted per-source sums of the sources of group `g`. -/
def R (t0 : Fin 4096 → EReal) (st et rate : Fin 16384 → EReal) (idx : Fin 16384 → BitVec 32) (gid : Fin 8192 → BitVec 32)
    (w : Fin 8192 → EReal) (t : Fin 4096) (g : Fin 1024) : EReal :=
  0 + ∑ s ∈ Finset.univ.filter (fun s : Fin 8192 => (gid s).toInt = (g.val : Int)), X t0 st et rate idx t s * w s

end Cert.Spec

end
-- ==== Proof.KDefs.lean ====
/-
  The arrays the kernel's region finds, read as plain coordinate functions, and the specification applied to them.
-/
import proofs.«420838_j60644938219534_3_alg».proof.Proof.Gen.KernelIdeal.Value
import proofs.«420838_j60644938219534_3_alg».proof.Proof.Spec

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Window 0's array (the segment start times as a column), by row. -/
abbrev aT0 (c : Dev nD) : Fin 4096 → EReal := fun t => (V m c main_v23 : S4096x1.Idx → EReal) (ix2 t 0)
/-- Window 1's array (the events' start times as a row), by column. -/
abbrev aSt (c : Dev nD) : Fin 16384 → EReal := fun e => (V m c main_v24 : S1x16384.Idx → EReal) (ix2 0 e)
/-- Window 2's array (the events' end times). -/
abbrev aEt (c : Dev nD) : Fin 16384 → EReal := fun e => (V m c main_v25 : S1x16384.Idx → EReal) (ix2 0 e)
/-- Window 3's array (the events' rates). -/
abbrev aRate (c : Dev nD) : Fin 16384 → EReal := fun e => (V m c main_v26 : S1x16384.Idx → EReal) (ix2 0 e)
/-- Window 4's array (the events' group words). -/
abbrev aGe (c : Dev nD) : Fin 16384 → BitVec 32 := fun e => (V m c main_v27 : S1x16384.Idx → BitVec 32) (ix2 0 e)
/-- Window 5's array (the events' weights). -/
abbrev aWe (c : Dev nD) : Fin 16384 → EReal := fun e => (V m c main_v28 : S1x16384.Idx → EReal) (ix2 0 e)

/-- The whole result array as the specification of the arrays the region finds. -/
def KG (c : Dev nD) : S4096x1024.Idx → EReal :=
  fun i => Cert.Spec.G (aT0 m c) (aSt m c) (aEt m c) (aRate m c) (aGe m c) (aWe m c) (i 0) (i 1)

/-- One event's term of a point's contraction, over the point's six input blocks: row `r` of the time block, column `e` of the event blocks. -/
def term (x0 : Vec Ideal S512x1 .f32) (x1 x2 x3 : Vec Ideal S1x2048 .f32) (x4 : Vec Ideal S1x2048 .i32) (x5 : Vec Ideal S1x2048 .f32)
    (r : Fin 512) (g : Fin 1024) (e : Fin 2048) : EReal :=
  Cert.Spec.mrate (x1 (ix2 0 e)) (x0 (ix2 r 0)) (x2 (ix2 0 e)) (x3 (ix2 0 e)) * Cert.Spec.hot g (x4 (ix2 0 e)) (x5 (ix2 0 e))

end Cert.KernelIdeal.Bridge

end
-- ==== Proof.KBlocks.lean ====
/-
  The grid is 8 row tiles (of 512 segment times) by 8 event tiles (of 2048 events); point `t` is row tile `t / 8`, event tile
  `t % 8`. Each input block of a point is its window's array read at the tile's offset: a block's coordinate is always
  block index × block size + the coordinate inside the block.
-/
import proofs.«420838_j60644938219534_3_alg».proof.Proof.KDefs
import Idealize.ShloMosaic.Lib.Pipeline.Value

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The six input blocks of point `t`, at literal types. -/
abbrev b0 (c : Dev nD) (t : Fin cfg0.N) : Vec Ideal S512x1 .f32 := iblk m c 0 t
abbrev b1 (c : Dev nD) (t : Fin cfg0.N) : Vec Ideal S1x2048 .f32 := iblk m c 1 t
abbrev b2 (c : Dev nD) (t : Fin cfg0.N) : Vec Ideal S1x2048 .f32 := iblk m c 2 t
abbrev b3 (c : Dev nD) (t : Fin cfg0.N) : Vec Ideal S1x2048 .f32 := iblk m c 3 t
abbrev b4 (c : Dev nD) (t : Fin cfg0.N) : Vec Ideal S1x2048 .i32 := iblk m c 4 t
abbrev b5 (c : Dev nD) (t : Fin cfg0.N) : Vec Ideal S1x2048 .f32 := iblk m c 5 t

/-- The time (row) coordinate of row `r` of point `t`'s row tile. -/
def rowOf (t : Fin cfg0.N) (r : Fin 512) : Fin 4096 := ⟨512 * (t.val / 8) + r.val, by have := t.isLt; have h : cfg0.N = 64 := N_0; omega⟩
/-- The event (column) coordinate of column `e` of event tile `k`. -/
def evOf (k : Fin 8) (e : Fin 2048) : Fin 16384 := ⟨2048 * k.val + e.val, by omega⟩
/-- Point `t`'s event tile. -/
def tileOf (t : Fin cfg0.N) : Fin 8 := ⟨t.val % 8, Nat.mod_lt _ (by decide)⟩

/-- The block index of each input window at point `t`, decided once over the 64 points: the time window moves with the row tile
    `t / 8` and stays at column block 0; every event window stays at row block 0 and moves with the event tile `t % 8`. -/
theorem blockIndex_0 : ∀ t : Fin cfg0.N, win0_0.index t (0 : Fin 2) = t.val / 8 ∧ win0_0.index t (1 : Fin 2) = 0 :=
  (by decide +kernel : ∀ t : Fin grid0.N, _)
theorem blockIndex_1 : ∀ t : Fin cfg0.N, win0_1.index t (0 : Fin 2) = 0 ∧ win0_1.index t (1 : Fin 2) = t.val % 8 :=
  (by decide +kernel : ∀ t : Fin grid0.N, _)
theorem blockIndex_2 : ∀ t : Fin cfg0.N, win0_2.index t (0 : Fin 2) = 0 ∧ win0_2.index t (1 : Fin 2) = t.val % 8 :=
  (by decide +kernel : ∀ t : Fin grid0.N, _)
theorem blockIndex_3 : ∀ t : Fin cfg0.N, win0_3.index t (0 : Fin 2) = 0 ∧ win0_3.index t (1 : Fin 2) = t.val % 8 :=
  (by decide +kernel : ∀ t : Fin grid0.N, _)
theorem blockIndex_4 : ∀ t : Fin cfg0.N, win0_4.index t (0 : Fin 2) = 0 ∧ win0_4.index t (1 : Fin 2) = t.val % 8 :=
  (by decide +kernel : ∀ t : Fin grid0.N, _)
theorem blockIndex_5 : ∀ t : Fin cfg0.N, win0_5.index t (0 : Fin 2) = 0 ∧ win0_5.index t (1 : Fin 2) = t.val % 8 :=
  (by decide +kernel : ∀ t : Fin grid0.N, _)

/-- Row `r` of the time block is row `512 · (t / 8) + r` of the time column: block index × block size + the row inside the block. -/
theorem b0_apply (c : Dev nD) (t : Fin cfg0.N) (r : Fin 512) : b0 m c t (ix2 r 0) = aT0 m c (rowOf t r) := by
  obtain ⟨h0, h1⟩ := blockIndex_0 t
  show V m c main_v23 (((cfg0.win 0).blk t).view.emb (ix2 r 0)) = V m c main_v23 (ix2 (rowOf t r) 0)
  congr 1
  funext a; apply Fin.ext
  match a with
  | ⟨0, _⟩ => show win0_0.index t (0 : Fin 2) * 512 + 1 * r.val = 512 * (t.val / 8) + r.val; omega
  | ⟨1, _⟩ => show win0_0.index t (1 : Fin 2) * 1 + 1 * 0 = 0; omega

/-- Column `e` of an event block is column `2048 · (t % 8) + e` of its event row, the same on each of the five event windows. -/
theorem b1_apply (c : Dev nD) (t : Fin cfg0.N) (e : Fin 2048) : b1 m c t (ix2 0 e) = aSt m c (evOf (tileOf t) e) := by
  obtain ⟨h0, h1⟩ := blockIndex_1 t
  show V m c main_v24 (((cfg0.win 1).blk t).view.emb (ix2 0 e)) = V m c main_v24 (ix2 0 (evOf (tileOf t) e))
  congr 1
  funext a; apply Fin.ext
  match a with
  | ⟨0, _⟩ => show win0_1.index t (0 : Fin 2) * 1 + 1 * 0 = 0; omega
  | ⟨1, _⟩ => show win0_1.index t (1 : Fin 2) * 2048 + 1 * e.val = 2048 * (t.val % 8) + e.val; omega
theorem b2_apply (c : Dev nD) (t : Fin cfg0.N) (e : Fin 2048) : b2 m c t (ix2 0 e) = aEt m c (evOf (tileOf t) e) := by
  obtain ⟨h0, h1⟩ := blockIndex_2 t
  show V m c main_v25 (((cfg0.win 2).blk t).view.emb (ix2 0 e)) = V m c main_v25 (ix2 0 (evOf (tileOf t) e))
  congr 1
  funext a; apply Fin.ext
  match a with
  | ⟨0, _⟩ => show win0_2.index t (0 : Fin 2) * 1 + 1 * 0 = 0; omega
  | ⟨1, _⟩ => show win0_2.index t (1 : Fin 2) * 2048 + 1 * e.val = 2048 * (t.val % 8) + e.val; omega
theorem b3_apply (c : Dev nD) (t : Fin cfg0.N) (e : Fin 2048) : b3 m c t (ix2 0 e) = aRate m c (evOf (tileOf t) e) := by
  obtain ⟨h0, h1⟩ := blockIndex_3 t
  show V m c main_v26 (((cfg0.win 3).blk t).view.emb (ix2 0 e)) = V m c main_v26 (ix2 0 (evOf (tileOf t) e))
  congr 1
  funext a; apply Fin.ext
  match a with
  | ⟨0, _⟩ => show win0_3.index t (0 : Fin 2) * 1 + 1 * 0 = 0; omega
  | ⟨1, _⟩ => show win0_3.index t (1 : Fin 2) * 2048 + 1 * e.val = 2048 * (t.val % 8) + e.val; omega
theorem b4_apply (c : Dev nD) (t : Fin cfg0.N) (e : Fin 2048) : b4 m c t (ix2 0 e) = aGe m c (evOf (tileOf t) e) := by
  obtain ⟨h0, h1⟩ := blockIndex_4 t
  show V m c main_v27 (((cfg0.win 4).blk t).view.emb (ix2 0 e)) = V m c main_v27 (ix2 0 (evOf (tileOf t) e))
  congr 1
  funext a; apply Fin.ext
  match a with
  | ⟨0, _⟩ => show win0_4.index t (0 : Fin 2) * 1 + 1 * 0 = 0; omega
  | ⟨1, _⟩ => show win0_4.index t (1 : Fin 2) * 2048 + 1 * e.val = 2048 * (t.val % 8) + e.val; omega
theorem b5_apply (c : Dev nD) (t : Fin cfg0.N) (e : Fin 2048) : b5 m c t (ix2 0 e) = aWe m c (evOf (tileOf t) e) := by
  obtain ⟨h0, h1⟩ := blockIndex_5 t
  show V m c main_v28 (((cfg0.win 5).blk t).view.emb (ix2 0 e)) = V m c main_v28 (ix2 0 (evOf (tileOf t) e))
  congr 1
  funext a; apply Fin.ext
  match a with
  | ⟨0, _⟩ => show win0_5.index t (0 : Fin 2) * 1 + 1 * 0 = 0; omega
  | ⟨1, _⟩ => show win0_5.index t (1 : Fin 2) * 2048 + 1 * e.val = 2048 * (t.val % 8) + e.val; omega

end Cert.KernelIdeal.Bridge

end
-- ==== Proof.KPay.lean ====
/-
  The body's accumulating payload read at one entry: the loaded accumulator's entry plus the sum over the point's 2048
  events of masked rate times group weight (a matrix product into a zero accumulator is the plain sum of products,
  and a change of float format is the identity on the extended reals).
-/
import proofs.«420838_j60644938219534_3_alg».proof.Proof.KDefs
import Idealize.ShloMosaic.PureOps.Ideal.Laws
import Idealize.ShloMosaic.Lib.Pipeline.Value
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.ValueIdx

/-! ## A column spread over many columns -/

/-- An [a, 1] array broadcast to [a, b] reads, at (p, c), the operand's one column at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction's operand indices, axis by axis

The product contracts axis 1 of both operands; the left operand's axis 0 follows the result's axis 0 and the right
operand's axis 0 the result's axis 1. -/

private theorem lhs_axis0 (j : S512x1024.Idx) (k : dot_S512x2048_S1024x2048_S512x1024_1_1_0_0_n_n.contr.Idx) :
    (dot_S512x2048_S1024x2048_S512x1024_1_1_0_0_n_n.lhsIdx j k 0).val = (j 0).val := rfl

private theorem lhs_axis1 (j : S512x1024.Idx) (k : dot_S512x2048_S1024x2048_S512x1024_1_1_0_0_n_n.contr.Idx) :
    (dot_S512x2048_S1024x2048_S512x1024_1_1_0_0_n_n.lhsIdx j k 1).val = (k ⟨0, by decide⟩).val :=
  DotDims.lhsIdx_val_of_single dot_S512x2048_S1024x2048_S512x1024_1_1_0_0_n_n (cl := 1) rfl j k

private theorem rhs_axis0 (j : S512x1024.Idx) (k : dot_S512x2048_S1024x2048_S512x1024_1_1_0_0_n_n.contr.Idx) :
    (dot_S512x2048_S1024x2048_S512x1024_1_1_0_0_n_n.rhsIdx j k 0).val = (j 1).val := rfl

private theorem rhs_axis1 (j : S512x1024.Idx) (k : dot_S512x2048_S1024x2048_S512x1024_1_1_0_0_n_n.contr.Idx) :
    (dot_S512x2048_S1024x2048_S512x1024_1_1_0_0_n_n.rhsIdx j k 1).val = (k ⟨0, by decide⟩).val :=
  DotDims.rhsIdx_val_of_single dot_S512x2048_S1024x2048_S512x1024_1_1_0_0_n_n (cr := 1) rfl j k

/-- The product into the zero accumulator, read at (r, g): the sum over the contracted coordinate of the left operand's
    row r times the right operand's row g. -/
private theorem matmul_zero_apply (A : FVec Ideal S512x2048 .bf16) (B : FVec Ideal S1024x2048 .bf16) (r : Fin 512) (g : Fin 1024) :
    FloatOps.matmul dot_S512x2048_S1024x2048_S512x1024_1_1_0_0_n_n none A B (constant (F := Ideal) S512x1024 .f32 0x00000000#32) (ix2 r g)
      = ∑ e : Fin 2048, A (ix2 r e) * B (ix2 g e) := by
  rw [Ideal.matmul_constant_zero_apply,
    ← Equiv.sum_comp (contrEquiv1 dot_S512x2048_S1024x2048_S512x1024_1_1_0_0_n_n 2048 rfl rfl).symm]
  refine Finset.sum_congr rfl fun e _ => ?_
  have hk := contrEquiv1_symm_val dot_S512x2048_S1024x2048_S512x1024_1_1_0_0_n_n 2048 rfl rfl e
  have hl : dot_S512x2048_S1024x2048_S512x1024_1_1_0_0_n_n.lhsIdx (ix2 r g)
      ((contrEquiv1 dot_S512x2048_S1024x2048_S512x1024_1_1_0_0_n_n 2048 rfl rfl).symm e) = ix2 r e := by
    funext ax; apply Fin.ext
    match ax with
    | ⟨0, _⟩ => exact lhs_axis0 _ _
    | ⟨1, _⟩ => exact (lhs_axis1 _ _).trans hk
  have hr : dot_S512x2048_S1024x2048_S512x1024_1_1_0_0_n_n.rhsIdx (ix2 r g)
      ((contrEquiv1 dot_S512x2048_S1024x2048_S512x1024_1_1_0_0_n_n 2048 rfl rfl).symm e) = ix2 g e := by
    funext ax; apply Fin.ext
    match ax with
    | ⟨0, _⟩ => exact rhs_axis0 _ _
    | ⟨1, _⟩ => exact (rhs_axis1 _ _).trans hk
  rw [hl, hr]

/-! ## The two operands at an index -/

/-- The left operand at an index: the rate where the first time is at most the second and the second is below the third,
    else zero (the narrowing of the float format is the identity on the extended reals). -/
private theorem rate_at (a b c d : FVec Ideal S512x2048 .f32) (i : S512x2048.Idx) :
    (truncf .bf16 (select (andi (cmpf .ole a b) (cmpf .olt b c)) d
        (broadcast S512x2048 (FloatOps.ofBits (F := Ideal) .f32 0x00000000#32))) bitsLt_bf16_f32 : FVec Ideal S512x2048 .bf16) i
      = Cert.Spec.mrate (a i) (b i) (c i) (d i) := by
  show Scalar.select _ (d i) (Ideal.ofBits .f32 0x00000000#32) = _
  rw [Ideal.ofBits_zero_f32]
  rfl

/-- The right operand at (g, e): the weight where the row number g is the event's group word, else zero. -/
private theorem hot_at (ge : IVec S1024x2048 32) (we : FVec Ideal S1024x2048 .f32) (g : Fin 1024) (e : Fin 2048) :
    (truncf .bf16 (select (cmpi .eq (iota .tc S1024x2048 32 [0] iota_S1024x2048_d0_w32) ge) we
        (broadcast S1024x2048 (FloatOps.ofBits (F := Ideal) .f32 0x00000000#32))) bitsLt_bf16_f32 : FVec Ideal S1024x2048 .bf16) (ix2 g e)
      = Cert.Spec.hot g (ge (ix2 g e)) (we (ix2 g e)) := by
  show Scalar.select (IntOp.cmpi .eq (iota .tc S1024x2048 32 [0] iota_S1024x2048_d0_w32 (ix2 g e)) (ge (ix2 g e))) (we (ix2 g e))
      (Ideal.ofBits .f32 0x00000000#32) = _
  rw [Ideal.ofBits_zero_f32, iota_single_apply]
  rfl

/-- Entry `(r, g)` of the accumulating payload. -/
theorem pay3_apply (x0 : Vec Ideal S512x1 .f32) (x1 : Vec Ideal S1x2048 .f32) (x2 : Vec Ideal S1x2048 .f32) (x3 : Vec Ideal S1x2048 .f32) (x4 : Vec Ideal S1x2048 .i32) (x5 : Vec Ideal S1x2048 .f32) (acc : Vec Ideal S512x1024 .f32) (r : Fin 512) (g : Fin 1024) :
    k0_pay3 (F := Ideal) x0 x1 x2 x3 x4 x5 acc (ix2 r g) = acc (ix2 r g) + ∑ e : Fin 2048, term x0 x1 x2 x3 x4 x5 r g e := by
  unfold k0_pay3
  -- the sum of the accumulator and the product, entry by entry; the product as the sum over the events
  refine (addf_apply (s := S512x1024) (φ := .f32) acc _ (ix2 r g)).trans ?_
  refine congrArg (acc (ix2 r g) + ·) ?_
  refine (matmul_zero_apply _ _ r g).trans (Finset.sum_congr rfl fun e _ => ?_)
  -- one event's product: the two operands at their indices
  refine (congrArg₂ (· * ·) (rate_at _ _ _ _ (ix2 r e)) (hot_at _ _ g e)).trans ?_
  -- the six blocks' reads: a same-shape cast is the identity, a row spread over the rows reads its column,
  -- a column spread over the columns reads its row
  have h0 : broadcastTo S512x2048 (shapeCast S512x1 x0 shapeCasts_S512x1_S512x1) broadcasts_S512x1_S512x2048 (ix2 r e)
      = x0 (ix2 r 0) := by
    rw [shapeCast_self]; exact broadcastTo_a1_ab_apply x0 _ r e
  have h1 : broadcastTo S512x2048 (shapeCast S1x2048 x1 shapeCasts_S1x2048_S1x2048) broadcasts_S1x2048_S512x2048 (ix2 r e)
      = x1 (ix2 0 e) := by
    rw [shapeCast_self]; exact broadcastTo_1b_ab_apply x1 _ r e
  have h2 : broadcastTo S512x2048 (shapeCast S1x2048 x2 shapeCasts_S1x2048_S1x2048) broadcasts_S1x2048_S512x2048 (ix2 r e)
      = x2 (ix2 0 e) := by
    rw [shapeCast_self]; exact broadcastTo_1b_ab_apply x2 _ r e
  have h3 : broadcastTo S512x2048 (shapeCast S1x2048 (shapeCast S1x2048 x3 shapeCasts_S1x2048_S1x2048) shapeCasts_S1x2048_S1x2048)
      broadcasts_S1x2048_S512x2048 (ix2 r e) = x3 (ix2 0 e) := by
    rw [shapeCast_self, shapeCast_self]; exact broadcastTo_1b_ab_apply x3 _ r e
  have h4 : broadcastTo S1024x2048 (shapeCast S1x2048 x4 shapeCasts_S1x2048_S1x2048) broadcasts_S1x2048_S1024x2048 (ix2 g e)
      = x4 (ix2 0 e) := by
    rw [shapeCast_self]; exact broadcastTo_1b_ab_apply x4 _ g e
  have h5 : broadcastTo S1024x2048 (shapeCast S1x2048 (shapeCast S1x2048 x5 shapeCasts_S1x2048_S1x2048) shapeCasts_S1x2048_S1x2048)
      broadcasts_S1x2048_S1024x2048 (ix2 g e) = x5 (ix2 0 e) := by
    rw [shapeCast_self, shapeCast_self]; exact broadcastTo_1b_ab_apply x5 _ g e
  rw [h0, h1, h2, h3, h4, h5]
  rfl

end Cert.KernelIdeal.Bridge

end
-- ==== Proof.KPieces.lean ====
/-
  What each control case of the body leaves in the carried accumulator and in the output block, read at one entry.
  First point of a row of tiles: the accumulator is reset, so it ends at the point's sum alone. Later points: the
  accumulator the point before left, plus the point's sum. Last point: the output block is the accumulator just stored.
-/
import proofs.«420838_j60644938219534_3_alg».proof.Proof.KPay

noncomputable section

namespace Cert.KernelIdeal.Bridge

open Cert.KernelIdeal Cert.KernelIdeal.Gen Idealize.ShloMosaic Idealize.ShloMosaic.TcCoe Idealize.SL.Sem
open Idealize.ShloMosaic.ValueIdx

variable {c : Dev nD}

/-- The zero offsets of a whole-block access. -/
private theorem hz : (![0, 0] : Fin 2 → Nat) = fun _ => 0 := funext fun a => by fin_cases a <;> rfl

section pieces

variable {F : FTy → Type} [FloatOps F]

/-- Case A, at any value type: two whole-block stores, the zero block and then the update computed from the zero
    block read back; the later store covers, so the accumulator is the update of the zero block. -/
private theorem sout_A_piece (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x1 .f32) (x1 : Vec F S1x2048 .f32) (x2 : Vec F S1x2048 .f32) (x3 : Vec F S1x2048 .f32) (x4 : Vec F S1x2048 .i32) (x5 : Vec F S1x2048 .f32) :
    sout0_A_0 c i arg2 harg2 arg3 harg3 arg4 harg4 arg5 harg5 arg6 harg6 arg7 harg7 arg8 harg8 arg9 harg9 hc0 hc1 x0 x1 x2 x3 x4 x5 = k0_pay1 (k0_pay3 x0 x1 x2 x3 x4 x5 (k0_pay2 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x2048) hz]

/-- Case B, at any value type: one whole-block store of the update of the accumulator as it was left. -/
private theorem sout_B_piece (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x1 .f32) (x1 : Vec F S1x2048 .f32) (x2 : Vec F S1x2048 .f32) (x3 : Vec F S1x2048 .f32) (x4 : Vec F S1x2048 .i32) (x5 : Vec F S1x2048 .f32) (xs0 : Vec F S512x1024 .f32) :
    sout0_B_0 c i arg2 harg2 arg3 harg3 arg4 harg4 arg5 harg5 arg6 harg6 arg7 harg7 arg8 harg8 arg9 harg9 hc0 hc1 x0 x1 x2 x3 x4 x5 xs0 = k0_pay1 (k0_pay3 x0 x1 x2 x3 x4 x5 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x2048) hz]

/-- Case C, the accumulator, at any value type: as in case B. -/
private theorem sout_C_piece (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1 .f32) (x1 : Vec F S1x2048 .f32) (x2 : Vec F S1x2048 .f32) (x3 : Vec F S1x2048 .f32) (x4 : Vec F S1x2048 .i32) (x5 : Vec F S1x2048 .f32) (xs0 : Vec F S512x1024 .f32) :
    sout0_C_0 c i arg2 harg2 arg3 harg3 arg4 harg4 arg5 harg5 arg6 harg6 arg7 harg7 arg8 harg8 arg9 harg9 hc0 hc1 x0 x1 x2 x3 x4 x5 xs0 = k0_pay1 (k0_pay3 x0 x1 x2 x3 x4 x5 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x2048) hz]

/-- Case C, the output block, at any value type: one whole-block store of the accumulator read back after its
    covering store, which is that store's payload. -/
private theorem out_C_piece (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1 .f32) (x1 : Vec F S1x2048 .f32) (x2 : Vec F S1x2048 .f32) (x3 : Vec F S1x2048 .f32) (x4 : Vec F S1x2048 .i32) (x5 : Vec F S1x2048 .f32) (xs0 : Vec F S512x1024 .f32) :
    out0_C_6 c i arg2 harg2 arg3 harg3 arg4 harg4 arg5 harg5 arg6 harg6 arg7 harg7 arg8 harg8 arg9 harg9 hc0 hc1 x0 x1 x2 x3 x4 x5 xs0 = k0_pay1 (k0_pay3 x0 x1 x2 x3 x4 x5 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x2048) hz, View.readCov_unit_zero (S := S512x1024) _ hz]

end pieces

/-- The stored update at one entry: the cast to the same shape is the identity, then the payload's entry. -/
private theorem upd_apply (x0 : Vec Ideal S512x1 .f32) (x1 : Vec Ideal S1x2048 .f32) (x2 : Vec Ideal S1x2048 .f32) (x3 : Vec Ideal S1x2048 .f32) (x4 : Vec Ideal S1x2048 .i32) (x5 : Vec Ideal S1x2048 .f32) (acc : Vec Ideal S512x1024 .f32) (r : Fin 512) (g : Fin 1024) :
    k0_pay1 (F := Ideal) (k0_pay3 (F := Ideal) x0 x1 x2 x3 x4 x5 acc) (ix2 r g) = acc (ix2 r g) + ∑ e : Fin 2048, term x0 x1 x2 x3 x4 x5 r g e := by
  unfold k0_pay1
  rw [shapeCast_self]
  exact pay3_apply x0 x1 x2 x3 x4 x5 acc r g

/-- The reset block is zero at every entry. -/
private theorem pay2_apply (r : Fin 512) (g : Fin 1024) : k0_pay2 (F := Ideal) (ix2 r g) = 0 := by
  unfold k0_pay2
  rw [shapeCast_self]
  exact Ideal.ofBits_zero_f32

/-- Case A (first event tile): the accumulator ends at the point's own sum. -/
theorem sout_A_apply (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec Ideal S512x1 .f32) (x1 : Vec Ideal S1x2048 .f32) (x2 : Vec Ideal S1x2048 .f32) (x3 : Vec Ideal S1x2048 .f32) (x4 : Vec Ideal S1x2048 .i32) (x5 : Vec Ideal S1x2048 .f32) (r : Fin 512) (g : Fin 1024) :
    sout0_A_0 (F := Ideal) c i arg2 harg2 arg3 harg3 arg4 harg4 arg5 harg5 arg6 harg6 arg7 harg7 arg8 harg8 arg9 harg9 hc0 hc1 x0 x1 x2 x3 x4 x5 (ix2 r g) = ∑ e : Fin 2048, term x0 x1 x2 x3 x4 x5 r g e := by
  refine (congrFun (sout_A_piece (F := Ideal) c i arg2 harg2 arg3 harg3 arg4 harg4 arg5 harg5 arg6 harg6 arg7 harg7 arg8 harg8 arg9 harg9 hc0 hc1 x0 x1 x2 x3 x4 x5) (ix2 r g)).trans ?_
  rw [upd_apply, pay2_apply, zero_add]

/-- Case B (a middle event tile): the accumulator ends at what it held plus the point's sum. -/
theorem sout_B_apply (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec Ideal S512x1 .f32) (x1 : Vec Ideal S1x2048 .f32) (x2 : Vec Ideal S1x2048 .f32) (x3 : Vec Ideal S1x2048 .f32) (x4 : Vec Ideal S1x2048 .i32) (x5 : Vec Ideal S1x2048 .f32) (xs0 : Vec Ideal S512x1024 .f32) (r : Fin 512) (g : Fin 1024) :
    sout0_B_0 (F := Ideal) c i arg2 harg2 arg3 harg3 arg4 harg4 arg5 harg5 arg6 harg6 arg7 harg7 arg8 harg8 arg9 harg9 hc0 hc1 x0 x1 x2 x3 x4 x5 xs0 (ix2 r g) = xs0 (ix2 r g) + ∑ e : Fin 2048, term x0 x1 x2 x3 x4 x5 r g e :=
  (congrFun (sout_B_piece (F := Ideal) c i arg2 harg2 arg3 harg3 arg4 harg4 arg5 harg5 arg6 harg6 arg7 harg7 arg8 harg8 arg9 harg9 hc0 hc1 x0 x1 x2 x3 x4 x5 xs0) (ix2 r g)).trans (upd_apply x0 x1 x2 x3 x4 x5 xs0 r g)

/-- Case C (the last event tile): the accumulator ends at what it held plus the point's sum … -/
theorem sout_C_apply (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec Ideal S512x1 .f32) (x1 : Vec Ideal S1x2048 .f32) (x2 : Vec Ideal S1x2048 .f32) (x3 : Vec Ideal S1x2048 .f32) (x4 : Vec Ideal S1x2048 .i32) (x5 : Vec Ideal S1x2048 .f32) (xs0 : Vec Ideal S512x1024 .f32) (r : Fin 512) (g : Fin 1024) :
    sout0_C_0 (F := Ideal) c i arg2 harg2 arg3 harg3 arg4 harg4 arg5 harg5 arg6 harg6 arg7 harg7 arg8 harg8 arg9 harg9 hc0 hc1 x0 x1 x2 x3 x4 x5 xs0 (ix2 r g) = xs0 (ix2 r g) + ∑ e : Fin 2048, term x0 x1 x2 x3 x4 x5 r g e :=
  (congrFun (sout_C_piece (F := Ideal) c i arg2 harg2 arg3 harg3 arg4 harg4 arg5 harg5 arg6 harg6 arg7 harg7 arg8 harg8 arg9 harg9 hc0 hc1 x0 x1 x2 x3 x4 x5 xs0) (ix2 r g)).trans (upd_apply x0 x1 x2 x3 x4 x5 xs0 r g)

/-- … and the output block is that same accumulator. -/
theorem out_C_apply (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec Ideal S512x1 .f32) (x1 : Vec Ideal S1x2048 .f32) (x2 : Vec Ideal S1x2048 .f32) (x3 : Vec Ideal S1x2048 .f32) (x4 : Vec Ideal S1x2048 .i32) (x5 : Vec Ideal S1x2048 .f32) (xs0 : Vec Ideal S512x1024 .f32) (r : Fin 512) (g : Fin 1024) :
    out0_C_6 (F := Ideal) c i arg2 harg2 arg3 harg3 arg4 harg4 arg5 harg5 arg6 harg6 arg7 harg7 arg8 harg8 arg9 harg9 hc0 hc1 x0 x1 x2 x3 x4 x5 xs0 (ix2 r g) = xs0 (ix2 r g) + ∑ e : Fin 2048, term x0 x1 x2 x3 x4 x5 r g e :=
  (congrFun (out_C_piece (F := Ideal) c i arg2 harg2 arg3 harg3 arg4 harg4 arg5 harg5 arg6 harg6 arg7 harg7 arg8 harg8 arg9 harg9 hc0 hc1 x0 x1 x2 x3 x4 x5 xs0) (ix2 r g)).trans (upd_apply x0 x1 x2 x3 x4 x5 xs0 r g)

end Cert.KernelIdeal.Bridge

end
-- ==== Proof.KFold.lean ====
/-
  The carried accumulator after point `t` is the sum over the event tiles `0 … t % 8` of the row tile of the points' sums;
  at the last event tile that is the sum over all 16384 events (8 tiles of 2048): the specification on the row tile's rows.
-/
import proofs.«420838_j60644938219534_3_alg».proof.Proof.KBlocks
import proofs.«420838_j60644938219534_3_alg».proof.Proof.KPieces

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- One event's term of the specification's sum, over the arrays the region finds. -/
def gterm (c : Dev nD) (t : Fin 4096) (g : Fin 1024) (e : Fin 16384) : EReal :=
  Cert.Spec.mrate (aSt m c e) (aT0 m c t) (aEt m c e) (aRate m c e) * Cert.Spec.hot g (aGe m c e) (aWe m c e)

/-! ## Sums over the event tiles -/

/-- The tiles up to tile 0: tile 0 alone. -/
private theorem sum_tiles_zero {M : Type*} [AddCommMonoid M] (f : Fin 8 → M) :
    ∑ k ∈ Finset.univ.filter (fun k : Fin 8 => k.val ≤ 0), f k = f 0 := by
  have hs : Finset.univ.filter (fun k : Fin 8 => k.val ≤ 0) = {(0 : Fin 8)} := by
    ext k
    simp only [Finset.mem_filter, Finset.mem_univ, true_and, Finset.mem_singleton, Fin.ext_iff, Fin.val_zero]
    omega
  rw [hs, Finset.sum_singleton]

/-- The tiles up to tile `i + 1`: the tiles up to `i`, and tile `i + 1`. -/
private theorem sum_tiles_succ {M : Type*} [AddCommMonoid M] (f : Fin 8 → M) (i : ℕ) (j : Fin 8) (hj : j.val = i + 1) :
    ∑ k ∈ Finset.univ.filter (fun k : Fin 8 => k.val ≤ i + 1), f k
      = (∑ k ∈ Finset.univ.filter (fun k : Fin 8 => k.val ≤ i), f k) + f j := by
  have hs : Finset.univ.filter (fun k : Fin 8 => k.val ≤ i + 1)
      = insert j (Finset.univ.filter (fun k : Fin 8 => k.val ≤ i)) := by
    ext k
    simp only [Finset.mem_filter, Finset.mem_univ, true_and, Finset.mem_insert, Fin.ext_iff]
    omega
  have hn : j ∉ Finset.univ.filter (fun k : Fin 8 => k.val ≤ i) := by
    simp only [Finset.mem_filter, Finset.mem_univ, true_and]
    omega
  rw [hs, Finset.sum_insert hn, add_comm]

/-- The tiles up to tile 7: all of them. -/
private theorem sum_tiles_all {M : Type*} [AddCommMonoid M] (f : Fin 8 → M) :
    ∑ k ∈ Finset.univ.filter (fun k : Fin 8 => k.val ≤ 7), f k = ∑ k : Fin 8, f k := by
  have hs : Finset.univ.filter (fun k : Fin 8 => k.val ≤ 7) = Finset.univ := by
    ext k
    simp only [Finset.mem_filter, Finset.mem_univ, true_and, iff_true]
    omega
  rw [hs]

/-- An event is a tile and a column inside it: 16384 = 8 × 2048. -/
private def tileEquiv : Fin 8 × Fin 2048 ≃ Fin 16384 where
  toFun p := evOf p.1 p.2
  invFun x := (⟨x.val / 2048, by omega⟩, ⟨x.val % 2048, by omega⟩)
  left_inv := by
    rintro ⟨k, e⟩
    refine Prod.ext (Fin.ext ?_) (Fin.ext ?_)
    · show (2048 * k.val + e.val) / 2048 = k.val
      omega
    · show (2048 * k.val + e.val) % 2048 = e.val
      omega
  right_inv := by
    intro x
    refine Fin.ext ?_
    show 2048 * (x.val / 2048) + x.val % 2048 = x.val
    omega

/-- The sum over the events, tile by tile. -/
private theorem sum_events {M : Type*} [AddCommMonoid M] (f : Fin 16384 → M) :
    ∑ k : Fin 8, ∑ e : Fin 2048, f (evOf k e) = ∑ x : Fin 16384, f x :=
  (Fintype.sum_prod_type' (fun k e => f (evOf k e))).symm.trans (Equiv.sum_comp tileEquiv f)

/-! ## A point's sum is over its event tile of the specification's terms -/

/-- A point's term at row `r`, column `e` is the specification's term at the row tile's row and the event tile's column. -/
private theorem term_eq (c : Dev nD) (t : Fin cfg0.N) (r : Fin 512) (g : Fin 1024) (e : Fin 2048) :
    term (b0 m c t) (b1 m c t) (b2 m c t) (b3 m c t) (b4 m c t) (b5 m c t) r g e = gterm m c (rowOf t r) g (evOf (tileOf t) e) := by
  unfold term gterm
  rw [b0_apply, b1_apply, b2_apply, b3_apply, b4_apply, b5_apply]

/-- The point before, in the same row of tiles, has the same rows. -/
private theorem rowOf_pred (t : Fin cfg0.N) (h0 : ¬t.val % 8 = 0) (hp : t.val - 1 < cfg0.N) (r : Fin 512) :
    rowOf ⟨t.val - 1, hp⟩ r = rowOf t r := by
  refine Fin.ext ?_
  show 512 * ((t.val - 1) / 8) + r.val = 512 * (t.val / 8) + r.val
  omega

/-- The carried accumulator after point `t`, by induction on the point. -/
private theorem scratch_aux (c : Dev nD) : ∀ (n : ℕ) (t : Fin cfg0.N), t.val = n → ∀ (r : Fin 512) (g : Fin 1024),
    (outsAt0 m c t.val t.isLt).2 (ix2 r g)
      = ∑ k ∈ Finset.univ.filter (fun k : Fin 8 => k.val ≤ t.val % 8), ∑ e : Fin 2048, gterm m c (rowOf t r) g (evOf k e) := by
  intro n
  induction n using Nat.strong_induction_on with
  | _ n ih =>
    intro t ht r g
    by_cases h0 : t.val % 8 = 0
    · -- first event tile: the accumulator is the point's sum alone
      have h1 : ¬t.val % 8 = 7 := by omega
      rw [outsAt0_A m c t h0 h1]; dsimp only
      refine (sout_A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (b0 m c t) (b1 m c t) (b2 m c t) (b3 m c t) (b4 m c t) (b5 m c t) r g).trans ?_
      rw [h0, sum_tiles_zero]
      refine Finset.sum_congr rfl (fun e _ => ?_)
      have hk : tileOf t = 0 := Fin.ext h0
      rw [term_eq, hk]
    · -- a later event tile: what the point before left, plus the point's sum
      have hp : t.val - 1 < cfg0.N := Nat.lt_of_le_of_lt (Nat.sub_le _ _) t.isLt
      have hprev := ih (t.val - 1) (by omega) ⟨t.val - 1, hp⟩ rfl r g
      have hmod : (t.val - 1) % 8 + 1 = t.val % 8 := by omega
      have hk : (tileOf t).val = (t.val - 1) % 8 + 1 := hmod.symm
      have hsum : ∀ xs0 : Vec Ideal S512x1024 .f32, xs0 = (outsAt0 m c (t.val - 1) hp).2 →
          xs0 (ix2 r g) + ∑ e : Fin 2048, term (b0 m c t) (b1 m c t) (b2 m c t) (b3 m c t) (b4 m c t) (b5 m c t) r g e
            = ∑ k ∈ Finset.univ.filter (fun k : Fin 8 => k.val ≤ t.val % 8), ∑ e : Fin 2048, gterm m c (rowOf t r) g (evOf k e) := by
        intro xs0 hxs
        rw [hxs, hprev, rowOf_pred t h0 hp r, ← hmod,
          sum_tiles_succ (fun k => ∑ e : Fin 2048, gterm m c (rowOf t r) g (evOf k e)) ((t.val - 1) % 8) (tileOf t) hk]
        refine congrArg _ (Finset.sum_congr rfl (fun e _ => ?_))
        exact term_eq m c t r g e
      by_cases h1 : t.val % 8 = 7
      · rw [outsAt0_C m c t h0 h1]; dsimp only
        exact (sout_C_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (b0 m c t) (b1 m c t) (b2 m c t) (b3 m c t) (b4 m c t) (b5 m c t) (outsAt0 m c (t.val - 1) hp).2 r g).trans (hsum _ rfl)
      · rw [outsAt0_B m c t h0 h1]; dsimp only
        exact (sout_B_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (b0 m c t) (b1 m c t) (b2 m c t) (b3 m c t) (b4 m c t) (b5 m c t) (outsAt0 m c (t.val - 1) hp).2 r g).trans (hsum _ rfl)

/-- The carried accumulator after point `t`: the sum over the row tile's event tiles so far. -/
theorem scratch_at (c : Dev nD) (t : Fin cfg0.N) (r : Fin 512) (g : Fin 1024) :
    (outsAt0 m c t.val t.isLt).2 (ix2 r g)
      = ∑ k ∈ Finset.univ.filter (fun k : Fin 8 => k.val ≤ t.val % 8), ∑ e : Fin 2048, gterm m c (rowOf t r) g (evOf k e) :=
  scratch_aux m c t.val t rfl r g

/-- The output block at a last event tile is the specification on the row tile's rows. -/
theorem out_at (c : Dev nD) (t : Fin cfg0.N) (h7 : t.val % 8 = 7) (r : Fin 512) (g : Fin 1024) :
    (outsAt0 m c t.val t.isLt).1 (ix2 r g) = KG m c (ix2 (rowOf t r) g) := by
  have h0 : ¬t.val % 8 = 0 := by omega
  have hp : t.val - 1 < cfg0.N := Nat.lt_of_le_of_lt (Nat.sub_le _ _) t.isLt
  -- at a last event tile the output block is the accumulator just stored
  have e1 : (outsAt0 m c t.val t.isLt).1 (ix2 r g) = (outsAt0 m c t.val t.isLt).2 (ix2 r g) := by
    rw [outsAt0_C m c t h0 h7]; dsimp only
    exact (out_C_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h7) (b0 m c t) (b1 m c t) (b2 m c t) (b3 m c t) (b4 m c t) (b5 m c t) (outsAt0 m c (t.val - 1) hp).2 r g).trans
      (sout_C_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h7) (b0 m c t) (b1 m c t) (b2 m c t) (b3 m c t) (b4 m c t) (b5 m c t) (outsAt0 m c (t.val - 1) hp).2 r g).symm
  rw [e1, scratch_at m c t r g, h7, sum_tiles_all]
  -- all 8 tiles of 2048 events are the 16384 events
  exact sum_events (fun x => gterm m c (rowOf t r) g x)

end Cert.KernelIdeal.Bridge

end
-- ==== Proof.KFinal.lean ====
/-
  From blocks to the array: the output window is written back at the last event tile of each row tile, its block the
  512 rows of that row tile; those eight blocks tile the 4096 rows, so the array ends at the specification.
-/
import proofs.«420838_j60644938219534_3_alg».proof.Proof.KFold

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The output window's block index at point `t`: row tile `t / 8`, the one column tile. -/
private theorem out_index : ∀ t : Fin cfg0.N, win0_6.index t (0 : Fin 2) = t.val / 8 ∧ win0_6.index t (1 : Fin 2) = 0 :=
  (by decide +kernel : ∀ t : Fin grid0.N, _)

/-- What a flushing point writes back is its block of the specification. -/
theorem flushed_eq (c : Dev nD) (t : Fin cfg0.N) (hf : (cfg0.win 6).flush t = true) :
    (dats m 0 c).flushed 6 t = ((cfg0.win 6).blk t).view.read (Elt Ideal) (KG m c) := by
  rw [Cert.KernelIdeal.Value.flushed6]
  have h7 : t.val % 8 = 7 := (flush0_6 t).mp hf
  obtain ⟨e0, e1⟩ := out_index t
  funext y
  obtain ⟨r, g, rfl⟩ : ∃ (r : Fin 512) (g : Fin 1024), y = ix2 r g := ⟨y 0, y 1, eq_ix2 y⟩
  rw [View.read_apply, cast_eq]
  refine (out_at m c t h7 r g).trans ?_
  refine congrArg (KG m c) ?_
  funext a; apply Fin.ext
  match a with
  | ⟨0, _⟩ => show 512 * (t.val / 8) + r.val = win0_6.index t (0 : Fin 2) * 512 + 1 * r.val; omega
  | ⟨1, _⟩ => show g.val = win0_6.index t (1 : Fin 2) * 1024 + 1 * g.val; omega

/-- An entry lies in point `t`'s block iff each of its coordinates is in the block's range on its axis. -/
private theorem mem_out_blk (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v29).slice (win0_6.rect t)).set ↔ _
  rw [View.set_slice_whole, Rect.mem_set_unit]
  exact Iff.rfl

/-- Every entry of the result lies in the block of some flushing point: row `ρ` is in row tile `ρ / 512`, whose last event tile is
    point `8 * (ρ / 512) + 7`. -/
theorem cover (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 64 := N_0
  obtain ⟨t, ht⟩ : ∃ t : Fin cfg0.N, t.val = 8 * ((i 0).val / 512) + 7 := ⟨⟨8 * ((i 0).val / 512) + 7, by omega⟩, rfl⟩
  obtain ⟨e0, e1⟩ := out_index t
  refine ⟨t, (flush0_6 t).mpr (by omega), ?_⟩
  rw [mem_out_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The output array after the run is the specification. -/
theorem final (c : Dev nD) : (dats m 0 c).arrAt 6 cfg0.N = KG m c :=
  (dats m 0 c).arrAt_eq_of_cover 6 (KG m c) (fun t hf => flushed_eq m c t hf) cover

/-- The kernel's run, with the result named. -/
theorem run : θ_run defs (onTc (τ := τ) (main (F := Ideal))) ⟨m, fun _ => 0, ρ⟩ fun r => ∀ c : Dev nD,
      r.2.mem ((c : Thread nD τ).loc main_v29) = KG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Bridge

end
-- ==== Proof.KHost.lean ====
/-
  The host operations before the region, read at one entry. The four float windows are reshapes of arguments. The group
  word of event `e` is the group table gathered at the event's index, guarded by an in-range test and clipped; the weight
  likewise, without the clip. For an index in range and a group word in range every guard and clip is the identity, so
  the two windows hold the tables read at the event's source.
-/
import proofs.«420838_j60644938219534_3_alg».proof.Proof.KDefs
import Idealize.ShloMosaic.Lib.StableHlo.Predicate
import Idealize.ShloMosaic.Lib.StableHlo.Run
import Idealize.ShloMosaic.Lib.WordArith

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The arguments as the program was launched with them, as plain coordinate functions. -/
abbrev mIdx (c : Dev nD) : Fin 16384 → BitVec 32 := fun e => (m ((c : Thread nD τ).loc main_arg0) : S16384.Idx → BitVec 32) (ix1 e)
abbrev mRate (c : Dev nD) : Fin 16384 → EReal := fun e => (m ((c : Thread nD τ).loc main_arg1) : S16384.Idx → EReal) (ix1 e)
abbrev mSt (c : Dev nD) : Fin 16384 → EReal := fun e => (m ((c : Thread nD τ).loc main_arg2) : S16384.Idx → EReal) (ix1 e)
abbrev mEt (c : Dev nD) : Fin 16384 → EReal := fun e => (m ((c : Thread nD τ).loc main_arg3) : S16384.Idx → EReal) (ix1 e)
abbrev mT0 (c : Dev nD) : Fin 4096 → EReal := fun t => (m ((c : Thread nD τ).loc main_arg4) : S4096.Idx → EReal) (ix1 t)
abbrev mGid (c : Dev nD) : Fin 8192 → BitVec 32 := fun s => (m ((c : Thread nD τ).loc main_arg5) : S8192.Idx → BitVec 32) (ix1 s)
abbrev mW (c : Dev nD) : Fin 8192 → EReal := fun s => (m ((c : Thread nD τ).loc main_arg6) : S8192.Idx → EReal) (ix1 s)

/-! ## The index arithmetic of the two table reads, as vector functions -/

/-- A scalar word laid along the event axis. -/
private def splat (k : BitVec 32) : IVec S16384 32 := broadcastInDim S16384 ![] Facts₀.bcast_S_S16384 (constantI S_ 32 k)

/-- The clamp of a word vector to `[lo, hi]`: the signed maximum with `lo`, then the signed minimum with `hi`. -/
private def clipV (lo hi : BitVec 32) (x : IVec S16384 32) : IVec S16384 32 := minsi (splat hi) (maxsi (splat lo) x)

/-- The guard: the index is signed-nonnegative and signed-below the table's length. -/
private def inRangeV (idx : IVec S16384 32) : IVec S16384 1 := andi (cmpi .sge idx (splat 0#32)) (cmpi .slt idx (splat 8192#32))

/-- The start index: the index clamped into the table, a negative one wrapped by the table's length. -/
private def startV (idx : IVec S16384 32) : IVec S16384 32 :=
  select (cmpi .slt (clipV 0#32 8191#32 idx) (splat 0#32)) (addi (clipV 0#32 8191#32 idx) (splat 8192#32)) (clipV 0#32 8191#32 idx)

/-- The table read at every event's start index. -/
private def takeV {α : Type} (tbl : S8192.Idx → α) (idx : IVec S16384 32) : S16384.Idx → α :=
  Host.gather gather_S8192_S16384x1_S16384_n_0_n_n_0_1_1 tbl (broadcastInDim S16384x1 ![0] Facts₀.bcast_S16384_S16384x1_0 (startV idx))

/-- The events' group words: the guarded read of the group table, clamped to `[0, 1023]`. -/
private def geV (idx : IVec S16384 32) (gid : S8192.Idx → BitVec 32) : IVec S16384 32 :=
  clipV 0#32 1023#32 (select (inRangeV idx) (takeV gid idx) (splat 0#32))

/-- The events' weights: the guarded read of the weight table. -/
private def weV (idx : IVec S16384 32) (w : S8192.Idx → EReal) : S16384.Idx → EReal :=
  select (inRangeV idx) (takeV w idx) (broadcastInDim S16384 ![] Facts₀.bcast_S_S16384 (constant (F := Ideal) S_ .f32 0x00000000#32))

/-! ## Words in range -/

/-- A word whose signed reading is in `[0, n)`, `n` at most 2³¹, has its natural value below `n`. -/
private theorem toNat_lt_of_toInt (x : BitVec 32) (n : Nat) (hn : n ≤ 2 ^ 31) (h0 : 0 ≤ x.toInt) (h1 : x.toInt < (n : Int)) : x.toNat < n := by
  have e := BitVec.toInt_eq_toNat_cond x
  have hl := x.isLt
  split at e <;> omega

/-- The clamp to `[0, hi]` is the identity on a word already there. -/
private theorem clip_id (hi w : BitVec 32) (hhi : hi.toNat < 2 ^ 31) (hw : w.toNat ≤ hi.toNat) :
    IntOp.minsi hi (IntOp.maxsi 0#32 w) = w := by
  have hti : w.toInt = w.toNat := StableHlo.Predicate.toInt_eq_toNat_of_lt (by omega)
  have hmax : IntOp.maxsi 0#32 w = w := BitVec.eq_of_toNat_eq (by rw [WordArith.toNat_maxsi_zero, hti, Int.toNat_natCast])
  rw [hmax]
  apply BitVec.eq_of_toNat_eq
  rw [WordArith.toNat_minsi_of_lt hi w hhi (by omega)]
  omega

/-- On a word in `[0, 8192)` the guard holds. -/
private theorem inRange_one (w : BitVec 32) (hw : w.toNat < 8192) :
    IntOp.andi (IntOp.cmpi .sge w 0#32) (IntOp.cmpi .slt w 8192#32) = 1#1 := by
  have h1 : IntOp.cmpi .sge w 0#32 = 1#1 := (StableHlo.Predicate.sge_iff_toNat (by omega) (by decide)).mpr (Nat.zero_le _)
  have h2 : IntOp.cmpi .slt w 8192#32 = 1#1 := (StableHlo.Predicate.slt_iff_toNat (by omega) (by decide)).mpr hw
  rw [h1, h2]; rfl

/-- A word in `[0, 2³¹)` is not signed-below zero: the wrap of a negative index is not taken. -/
private theorem wrap_id (w : BitVec 32) (hw : w.toNat < 2 ^ 31) :
    Scalar.select (IntOp.cmpi .slt w 0#32) (IntOp.addi w 8192#32) w = w := by
  have h : ¬ IntOp.cmpi .slt w 0#32 = 1#1 := fun h => by
    have := (StableHlo.Predicate.slt_iff_toNat hw (by decide)).mp h
    simp at this
  exact if_neg h

/-! ## The vector functions read at one event -/

/-- The start index of an event whose index is in `[0, 8192)` is the index: the clamp and the wrap are the identity. -/
private theorem startV_apply (idx : IVec S16384 32) (e : Fin 16384) (hw : (idx (ix1 e)).toNat < 8192) :
    startV idx (ix1 e) = idx (ix1 e) := by
  have h8 : (8191#32 : BitVec 32).toNat = 8191 := by decide
  show Scalar.select (IntOp.cmpi .slt (IntOp.minsi 8191#32 (IntOp.maxsi 0#32 (idx (ix1 e)))) 0#32)
      (IntOp.addi (IntOp.minsi 8191#32 (IntOp.maxsi 0#32 (idx (ix1 e)))) 8192#32) (IntOp.minsi 8191#32 (IntOp.maxsi 0#32 (idx (ix1 e)))) = _
  rw [clip_id 8191#32 _ (by decide) (by omega)]
  exact wrap_id _ (by omega)

/-- The table read at an event whose index is in `[0, 8192)` is the table at the index: the take reads at the start
    index clamped into the table, and the start index is the index, already inside. -/
private theorem takeV_apply {α : Type} (tbl : S8192.Idx → α) (idx : IVec S16384 32) (e : Fin 16384) (hw : (idx (ix1 e)).toNat < 8192) :
    takeV tbl idx (ix1 e) = tbl (ix1 ⟨(idx (ix1 e)).toNat, hw⟩) := by
  have e1 : (ix1 e : S16384.Idx) = Shape.Idx.ofFin e := Shape.Idx.eq_ofFin (ix1 e)
  refine Eq.trans (congrArg (takeV tbl idx) e1) ?_
  unfold takeV
  rw [StableHlo.Predicate.gather_take _ rfl rfl rfl rfl _ _ e (by decide)]
  refine congrArg tbl (funext fun a => ?_)
  obtain rfl : a = 0 := Subsingleton.elim _ _
  refine Fin.ext ?_
  show min ((broadcastInDim S16384x1 ![0] Facts₀.bcast_S16384_S16384x1_0 (startV idx)) (StableHlo.Predicate.ixP e)).toInt.toNat (8192 - 1)
    = (idx (ix1 e)).toNat
  rw [StableHlo.Predicate.bcast_col1, ← e1, startV_apply idx e hw, StableHlo.Predicate.toInt_eq_toNat_of_lt (by omega), Int.toNat_natCast]
  omega

/-- The group word of an event whose index is in `[0, 8192)` and whose source's group word is in `[0, 1024)`. -/
private theorem geV_apply (idx : IVec S16384 32) (gid : S8192.Idx → BitVec 32) (e : Fin 16384) (hw : (idx (ix1 e)).toNat < 8192)
    (hg : (gid (ix1 ⟨(idx (ix1 e)).toNat, hw⟩)).toNat < 1024) : geV idx gid (ix1 e) = gid (ix1 ⟨(idx (ix1 e)).toNat, hw⟩) := by
  have h1 : (1023#32 : BitVec 32).toNat = 1023 := by decide
  show IntOp.minsi 1023#32 (IntOp.maxsi 0#32 (Scalar.select (IntOp.andi (IntOp.cmpi .sge (idx (ix1 e)) 0#32) (IntOp.cmpi .slt (idx (ix1 e)) 8192#32))
      (takeV gid idx (ix1 e)) 0#32)) = _
  rw [inRange_one _ hw, select_one, takeV_apply gid idx e hw]
  exact clip_id 1023#32 _ (by decide) (by omega)

/-- The weight of an event whose index is in `[0, 8192)`. -/
private theorem weV_apply (idx : IVec S16384 32) (w : S8192.Idx → EReal) (e : Fin 16384) (hw : (idx (ix1 e)).toNat < 8192) :
    weV idx w (ix1 e) = w (ix1 ⟨(idx (ix1 e)).toNat, hw⟩) := by
  show Scalar.select (IntOp.andi (IntOp.cmpi .sge (idx (ix1 e)) 0#32) (IntOp.cmpi .slt (idx (ix1 e)) 8192#32)) (takeV w idx (ix1 e)) _ = _
  rw [inRange_one _ hw, select_one, takeV_apply w idx e hw]

/-! ## The six windows' arrays as terms of the arguments -/

/-- A row of 16384 entries read at column `e` is the flat vector at `e`: the two row-major positions agree. -/
private theorem row_apply {α : Type} (x : S16384.Idx → α) (e : Fin 16384) :
    shapeCast S1x16384 x Facts₀.shapeCasts_S16384_S1x16384 (ix2 0 e) = x (ix1 e) := by
  refine shapeCast_apply _ _ _ (ix1 e) ?_
  rw [Shape.rowMajor_val_one, Shape.rowMajor_val_two]
  show e.val = 0 * 16384 + e.val
  omega

private theorem V23 (c : Dev nD) : (V m c main_v23 : S4096x1.Idx → EReal)
    = fun i => shapeCast S4096x1 (m ((c : Thread nD τ).loc main_arg4) : S4096.Idx → EReal) Facts₀.shapeCasts_S4096_S4096x1 i := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results
  rfl

private theorem V24 (c : Dev nD) : (V m c main_v24 : S1x16384.Idx → EReal)
    = fun i => shapeCast S1x16384 (m ((c : Thread nD τ).loc main_arg2) : S16384.Idx → EReal) Facts₀.shapeCasts_S16384_S1x16384 i := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results
  rfl

private theorem V25 (c : Dev nD) : (V m c main_v25 : S1x16384.Idx → EReal)
    = fun i => shapeCast S1x16384 (m ((c : Thread nD τ).loc main_arg3) : S16384.Idx → EReal) Facts₀.shapeCasts_S16384_S1x16384 i := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results
  rfl

private theorem V26 (c : Dev nD) : (V m c main_v26 : S1x16384.Idx → EReal)
    = fun i => shapeCast S1x16384 (m ((c : Thread nD τ).loc main_arg1) : S16384.Idx → EReal) Facts₀.shapeCasts_S16384_S1x16384 i := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results
  rfl

set_option maxHeartbeats 2000000 in
private theorem V27 (c : Dev nD) : (V m c main_v27 : S1x16384.Idx → BitVec 32)
    = fun i => shapeCast S1x16384 (geV (m ((c : Thread nD τ).loc main_arg0) : S16384.Idx → BitVec 32)
        (m ((c : Thread nD τ).loc main_arg5) : S8192.Idx → BitVec 32)) Facts₀.shapeCasts_S16384_S1x16384 i := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results_simp
  rfl

set_option maxHeartbeats 2000000 in
private theorem V28 (c : Dev nD) : (V m c main_v28 : S1x16384.Idx → EReal)
    = fun i => shapeCast S1x16384 (weV (m ((c : Thread nD τ).loc main_arg0) : S16384.Idx → BitVec 32)
        (m ((c : Thread nD τ).loc main_arg6) : S8192.Idx → EReal)) Facts₀.shapeCasts_S16384_S1x16384 i := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results_simp
  rfl

/-! ## The windows read at one entry -/

theorem aT0_eq (c : Dev nD) : aT0 m c = mT0 m c := by
  funext t
  show (V m c main_v23 : S4096x1.Idx → EReal) (ix2 t 0) = _
  rw [V23]
  refine shapeCast_apply _ _ _ (ix1 t) ?_
  rw [Shape.rowMajor_val_one, Shape.rowMajor_val_two]
  show t.val = t.val * 1 + 0
  omega

theorem aSt_eq (c : Dev nD) : aSt m c = mSt m c := by
  funext e
  show (V m c main_v24 : S1x16384.Idx → EReal) (ix2 0 e) = _
  rw [V24]
  exact row_apply _ e

theorem aEt_eq (c : Dev nD) : aEt m c = mEt m c := by
  funext e
  show (V m c main_v25 : S1x16384.Idx → EReal) (ix2 0 e) = _
  rw [V25]
  exact row_apply _ e

theorem aRate_eq (c : Dev nD) : aRate m c = mRate m c := by
  funext e
  show (V m c main_v26 : S1x16384.Idx → EReal) (ix2 0 e) = _
  rw [V26]
  exact row_apply _ e

/-- With every index in `[0, 8192)` and every group word in `[0, 1024)`, event `e`'s group word is its source's. -/
theorem aGe_eq (c : Dev nD) (hidx : ∀ e, 0 ≤ (mIdx m c e).toInt ∧ (mIdx m c e).toInt < 8192)
    (hgid : ∀ s, 0 ≤ (mGid m c s).toInt ∧ (mGid m c s).toInt < 1024) :
    aGe m c = fun e => mGid m c (Cert.Spec.src (mIdx m c e)) := by
  funext e
  have hw : (mIdx m c e).toNat < 8192 := toNat_lt_of_toInt _ 8192 (by norm_num) (hidx e).1 (by have := (hidx e).2; omega)
  have hs : (⟨(mIdx m c e).toNat, hw⟩ : Fin 8192) = Cert.Spec.src (mIdx m c e) := Fin.ext (Nat.mod_eq_of_lt hw).symm
  have hg : (mGid m c ⟨(mIdx m c e).toNat, hw⟩).toNat < 1024 :=
    toNat_lt_of_toInt _ 1024 (by norm_num) (hgid _).1 (by have := (hgid ⟨(mIdx m c e).toNat, hw⟩).2; omega)
  show (V m c main_v27 : S1x16384.Idx → BitVec 32) (ix2 0 e) = mGid m c (Cert.Spec.src (mIdx m c e))
  rw [V27, ← hs]
  exact (row_apply _ e).trans (geV_apply _ _ e hw hg)

/-- With every index in `[0, 8192)`, event `e`'s weight is its source's. -/
theorem aWe_eq (c : Dev nD) (hidx : ∀ e, 0 ≤ (mIdx m c e).toInt ∧ (mIdx m c e).toInt < 8192) :
    aWe m c = fun e => mW m c (Cert.Spec.src (mIdx m c e)) := by
  funext e
  have hw : (mIdx m c e).toNat < 8192 := toNat_lt_of_toInt _ 8192 (by norm_num) (hidx e).1 (by have := (hidx e).2; omega)
  have hs : (⟨(mIdx m c e).toNat, hw⟩ : Fin 8192) = Cert.Spec.src (mIdx m c e) := Fin.ext (Nat.mod_eq_of_lt hw).symm
  show (V m c main_v28 : S1x16384.Idx → EReal) (ix2 0 e) = mW m c (Cert.Spec.src (mIdx m c e))
  rw [V28, ← hs]
  exact (row_apply _ e).trans (weV_apply _ _ e hw)

end Cert.KernelIdeal.Bridge

end
-- ==== Proof.PreDecode.lean ====
/-
  The precondition read back: it is the conjunction of nine whole-array tests — five that every entry of a float input is
  finite, and four that every event index is at least 0 and below 8192 and every group word at least 0 and below 1024 — so
  where it holds, each entry satisfies its test.
-/
import proofs.«420838_j60644938219534_3_alg».proof.Proof.Gen.Pre_finite_inputs
import proofs.«420838_j60644938219534_3_alg».proof.Proof.Spec
import Idealize.ShloMosaic.Lib.ReduceAll
import Idealize.ShloMosaic.Lib.StableHlo.Predicate
import Idealize.ShloMosaic.Lib.WordArith

noncomputable section

namespace Cert.PreFacts

open Cert.Pre_finite_inputs Idealize.ShloMosaic Idealize.ShloMosaic.ValueIdx

/-- The rank-zero shape has a single index. -/
private instance subsingleton_scalar_idx : Subsingleton S_.Idx := ⟨fun a b => funext fun d => d.elim0⟩

/-- The f32 pattern with all exponent bits set and a zero fraction denotes +∞. -/
private theorem inf_bits : Ideal.ofBits .f32 0x7F800000#32 = (⊤ : EReal) := by
  simp [Ideal.ofBits, Ideal.ieee]

/-- An extended real whose absolute value `max x (-x)` tests strictly below +∞ is neither infinity. -/
private theorem finite_of_abs_lt (x : EReal)
    (h : Ideal.cmp .olt (max x (-x)) (Ideal.ofBits .f32 0x7F800000#32) = 1#1) : x ≠ ⊤ ∧ x ≠ ⊥ := by
  rw [inf_bits] at h
  have hlt : max x (-x) < ⊤ := by
    by_contra hn
    simp [Ideal.cmp, hn] at h
  constructor
  · rintro rfl
    simp at hlt
  · rintro rfl
    simp at hlt

/-- A conjunction of two one-bit arrays that is 1 at an index has both conjuncts 1 there. -/
private theorem and_split {s : Shape} (a b : IVec s 1) (i : s.Idx) (h : andi a b i = 1#1) : a i = 1#1 ∧ b i = 1#1 :=
  IntOp.andi_eq_one.1 h

/-- What the precondition says entry by entry (of it, the proof uses the two index ranges and the finiteness of the rates and the weights). -/
theorem decode (x0 : IVec S16384 32) (x1 x2 x3 : FVec Ideal S16384 .f32) (x4 : FVec Ideal S4096 .f32) (x5 : IVec S8192 32)
    (x6 : FVec Ideal S8192 .f32) (h : fn (F := Ideal) x0 x1 x2 x3 x4 x5 x6 = fun _ => 1#1) :
    (∀ e : Fin 16384, 0 ≤ (x0 (ix1 e)).toInt ∧ (x0 (ix1 e)).toInt < 8192)
    ∧ (∀ s : Fin 8192, 0 ≤ (x5 (ix1 s)).toInt ∧ (x5 (ix1 s)).toInt < 1024)
    ∧ (∀ e : Fin 16384, (x1 (ix1 e) : EReal) ≠ ⊤ ∧ (x1 (ix1 e) : EReal) ≠ ⊥)
    ∧ (∀ s : Fin 8192, (x6 (ix1 s) : EReal) ≠ ⊤ ∧ (x6 (ix1 s) : EReal) ≠ ⊥) := by
  have h0 := congrFun h ValueIdx.ix0
  dsimp only [fn, fn_part1, fn_part2] at h0
  -- the nine conjuncts, outermost first: group < 1024, group ≥ 0, index < 8192, index ≥ 0, weights finite, then the rest
  obtain ⟨h0, hg_lt⟩ := and_split _ _ _ h0
  obtain ⟨h0, hg_ge⟩ := and_split _ _ _ h0
  obtain ⟨h0, hi_lt⟩ := and_split _ _ _ h0
  obtain ⟨h0, hi_ge⟩ := and_split _ _ _ h0
  obtain ⟨h0, hw⟩ := and_split _ _ _ h0
  obtain ⟨h0, -⟩ := and_split _ _ _ h0
  obtain ⟨h0, -⟩ := and_split _ _ _ h0
  obtain ⟨hr, -⟩ := and_split _ _ _ h0
  refine ⟨fun e => ⟨?_, ?_⟩, fun s => ⟨?_, ?_⟩, fun e => ?_, fun s => ?_⟩
  · -- 0 ≤ index e: the signed test against the constant 0
    have he := Host.reduce_andi_all _ _ _ _ _ hi_ge (ix1 e)
    change IntOp.cmpi .sge (x0 (ix1 e)) 0#32 = 1#1 at he
    have := IntOp.cmpi_sge.1 he
    rwa [show (0#32 : BitVec 32).toInt = 0 from by decide] at this
  · -- index e < 8192: the signed test against the constant 8192
    have he := Host.reduce_andi_all _ _ _ _ _ hi_lt (ix1 e)
    change IntOp.cmpi .slt (x0 (ix1 e)) 8192#32 = 1#1 at he
    have := IntOp.cmpi_slt.1 he
    rwa [show (8192#32 : BitVec 32).toInt = 8192 from by decide] at this
  · -- 0 ≤ group s
    have hs := Host.reduce_andi_all _ _ _ _ _ hg_ge (ix1 s)
    change IntOp.cmpi .sge (x5 (ix1 s)) 0#32 = 1#1 at hs
    have := IntOp.cmpi_sge.1 hs
    rwa [show (0#32 : BitVec 32).toInt = 0 from by decide] at this
  · -- group s < 1024
    have hs := Host.reduce_andi_all _ _ _ _ _ hg_lt (ix1 s)
    change IntOp.cmpi .slt (x5 (ix1 s)) 1024#32 = 1#1 at hs
    have := IntOp.cmpi_slt.1 hs
    rwa [show (1024#32 : BitVec 32).toInt = 1024 from by decide] at this
  · -- rate e is finite: |rate e| < +∞
    have he := Host.reduce_andi_all _ _ _ _ _ hr (ix1 e)
    exact finite_of_abs_lt (x1 (ix1 e)) he
  · -- weight s is finite: |weight s| < +∞
    have hs := Host.reduce_andi_all _ _ _ _ _ hw (ix1 s)
    exact finite_of_abs_lt (x6 (ix1 s)) hs

end Cert.PreFacts

end
-- ==== Proof.RefValue.lean ====
/-
  The reference's result read at one entry. Its two accumulating scatters are exact sums at the extended reals: the first adds
  each event's masked rate to the source its (wrapped) index names, dropping an event whose index leaves the axis; the second
  adds each source's weighted sum to the group its group word names, dropping a source whose word leaves the axis. Every other
  operation is a broadcast, a transpose or pointwise.

  Each scatter is read in three steps. For its literal dimension numbers the window start and the window coordinate of an
  update index are computed on both operand axes, so that an update index lands on a given operand index exactly when its
  window coordinate is the operand's and its index word, read signed, is the operand's scattered coordinate. The sum over the
  update indices landing on an entry is then a double sum over the update's two coordinates, in which the window coordinate is
  pinned, leaving the sum over the scattered coordinates whose word names the entry. Last, the operands are read at an entry
  through the pointwise and layout operations before them.
-/
import proofs.«420838_j60644938219534_3_alg».proof.Proof.Gen.ReferenceIdeal.Read
import proofs.«420838_j60644938219534_3_alg».proof.Proof.Spec
import Idealize.ShloMosaic.Lib.WordArith
import Idealize.ShloMosaic.PureOps.Ideal.Laws

noncomputable section

namespace Cert.ReferenceIdeal.RefValue

open Cert.ReferenceIdeal Cert.ReferenceIdeal.Gen Idealize.ShloMosaic Idealize.ShloMosaic.ValueIdx

/-- A double sum whose summand vanishes unless the first coordinate is `p` and the second satisfies `C` is the
    sum over the second coordinates satisfying `C`, read at `p`. -/
private theorem sum_pin {n0 n1 : Nat} (p : Fin n0) (C : Fin n1 → Prop) [DecidablePred C]
    {D : ∀ a b, Decidable (a = p ∧ C b)} (f : Fin n0 → Fin n1 → EReal) :
    ∑ a : Fin n0, ∑ b : Fin n1, (@ite _ (a = p ∧ C b) (D a b) (f a b) 0) = ∑ b ∈ Finset.univ.filter C, f p b := by
  rw [Finset.sum_comm, Finset.sum_filter]
  refine Finset.sum_congr rfl fun b _ => ?_
  by_cases hb : C b
  · rw [if_pos hb, Finset.sum_eq_single p]
    · rw [if_pos ⟨rfl, hb⟩]
    · intro a _ ha; rw [if_neg (fun h => ha h.1)]
    · intro h; exact absurd (Finset.mem_univ p) h
  · rw [if_neg hb]
    exact Finset.sum_eq_zero fun a _ => if_neg (fun h => hb h.2)

/-! ## The first scatter's dimension numbers: operand `[T, S]`, index words `[E, 1]`, updates `[T, E]`

Update `(t, e)` has window coordinate `t` on the operand's first axis and start `0` there; on the second axis its start
is event `e`'s index word read signed, its window coordinate `0`. -/

/-- The first scatter's dimension numbers. -/
private abbrev d1 := scatter_S4096x8192_S16384x1_S4096x16384_0_1_1_1

/-- No index word names the operand's first axis: the start there is zero. -/
private theorem d1_start0 (idx : IVec S16384x1 32) (t : Fin 4096) (e : Fin 16384) :
    d1.start (ix2 t e) idx 0 = 0 := by
  unfold ScatterDims.start
  rw [dif_neg (show ¬ (0 : Fin 2) ∈ d1.scatterDimsToOperandDims from by decide)]

/-- On the operand's second axis the start is the event's index word, read signed. -/
private theorem d1_start1 (idx : IVec S16384x1 32) (t : Fin 4096) (e : Fin 16384) :
    d1.start (ix2 t e) idx 1 = (idx (ix2 e 0)).toInt := by
  unfold ScatterDims.start
  rw [dif_pos (show (1 : Fin 2) ∈ d1.scatterDimsToOperandDims from List.mem_singleton.mpr rfl)]
  have hsi : d1.siIdx (ix2 t e) ⟨List.idxOf (1 : Fin 2) d1.scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window coordinate on the operand's first axis is the update's first coordinate. -/
private theorem d1_window0 (t : Fin 4096) (e : Fin 16384) :
    d1.window (ix2 t e) 0 = t.val := by
  unfold ScatterDims.window
  rw [dif_pos (show (0 : Fin 2) ∈ d1.sKept from by decide)]
  rfl

/-- The operand's second axis is an inserted one: its window coordinate is zero. -/
private theorem d1_window1 (t : Fin 4096) (e : Fin 16384) :
    d1.window (ix2 t e) 1 = 0 := by
  unfold ScatterDims.window
  rw [dif_neg (show ¬ (1 : Fin 2) ∈ d1.sKept from by decide)]

/-- Update `(t, e)` lands on operand entry `(p, q)` exactly when `t = p` and event `e`'s index word reads `q`; a word outside
    the axis lands nowhere. -/
private theorem d1_result (idx : IVec S16384x1 32) (t p : Fin 4096) (e : Fin 16384) (q : Fin 8192) :
    d1.resultIdx? (ix2 t e) idx = some (ix2 p q) ↔ t = p ∧ (idx (ix2 e 0)).toInt = (q.val : Int) := by
  unfold ScatterDims.resultIdx?
  by_cases hc : ∀ a, 0 ≤ d1.start (ix2 t e) idx a + d1.window (ix2 t e) a ∧
      d1.start (ix2 t e) idx a + d1.window (ix2 t e) a < S4096x8192.size a
  · rw [dif_pos hc]
    constructor
    · intro h
      have h' := Option.some.inj h
      have e0 : (d1.start (ix2 t e) idx 0 + (d1.window (ix2 t e) 0 : Int)).toNat = p.val :=
        congrArg Fin.val (congrFun h' 0)
      have e1 : (d1.start (ix2 t e) idx 1 + (d1.window (ix2 t e) 1 : Int)).toNat = q.val :=
        congrArg Fin.val (congrFun h' 1)
      have h1 : 0 ≤ d1.start (ix2 t e) idx 1 + (d1.window (ix2 t e) 1 : Int) := (hc 1).1
      rw [d1_start0, d1_window0] at e0
      rw [d1_start1, d1_window1] at e1 h1
      exact ⟨Fin.ext (by omega), by omega⟩
    · rintro ⟨rfl, hq⟩
      congr 1; funext a
      match a with
      | ⟨0, _⟩ =>
        refine Fin.ext ?_
        show (d1.start (ix2 t e) idx 0 + (d1.window (ix2 t e) 0 : Int)).toNat = t.val
        rw [d1_start0, d1_window0]; omega
      | ⟨1, _⟩ =>
        refine Fin.ext ?_
        show (d1.start (ix2 t e) idx 1 + (d1.window (ix2 t e) 1 : Int)).toNat = q.val
        rw [d1_start1, d1_window1]; omega
  · rw [dif_neg hc]
    constructor
    · intro h; cases h
    · rintro ⟨rfl, hq⟩
      exfalso; apply hc; intro a
      match a with
      | ⟨0, _⟩ =>
        show 0 ≤ d1.start (ix2 t e) idx 0 + (d1.window (ix2 t e) 0 : Int) ∧
          d1.start (ix2 t e) idx 0 + (d1.window (ix2 t e) 0 : Int) < ((4096 : Nat) : Int)
        rw [d1_start0, d1_window0]; have := t.isLt; omega
      | ⟨1, _⟩ =>
        show 0 ≤ d1.start (ix2 t e) idx 1 + (d1.window (ix2 t e) 1 : Int) ∧
          d1.start (ix2 t e) idx 1 + (d1.window (ix2 t e) 1 : Int) < ((8192 : Nat) : Int)
        rw [d1_start1, d1_window1]; have := q.isLt; omega

/-- The first scatter at entry `(t, s)`: the operand's entry plus the updates `(t, e)` of the events whose index word reads `s`. -/
private theorem scatter1_apply (x : FVec Ideal S4096x8192 .f32) (idx : IVec S16384x1 32) (upd : FVec Ideal S4096x16384 .f32)
    (t : Fin 4096) (s : Fin 8192) :
    Host.scatterAdd (F := Ideal) (φ := .f32) d1 x idx upd (ix2 t s)
      = x (ix2 t s) + ∑ e ∈ Finset.univ.filter (fun e : Fin 16384 => (idx (ix2 e 0)).toInt = (s.val : Int)), upd (ix2 t e) := by
  show Ideal.hostScatterAdd d1 x idx upd (ix2 t s) = _
  unfold Ideal.hostScatterAdd
  refine congrArg (x (ix2 t s) + ·) ?_
  rw [Finset.sum_filter, sum_idx2]
  simp only [d1_result]
  exact sum_pin t _ _

/-! ## The second scatter's dimension numbers: operand `[G, T]`, group words `[S, 1]`, updates `[S, T]`

Update `(s, t)` has start source `s`'s group word read signed on the operand's first axis, window coordinate `0` there;
on the second axis its start is `0` and its window coordinate `t`. -/

/-- The second scatter's dimension numbers. -/
private abbrev d2 := scatter_S1024x4096_S8192x1_S8192x4096_1_0_0_1

/-- On the operand's first axis the start is the source's group word, read signed. -/
private theorem d2_start0 (idx : IVec S8192x1 32) (s : Fin 8192) (t : Fin 4096) :
    d2.start (ix2 s t) idx 0 = (idx (ix2 s 0)).toInt := by
  unfold ScatterDims.start
  rw [dif_pos (show (0 : Fin 2) ∈ d2.scatterDimsToOperandDims from List.mem_singleton.mpr rfl)]
  have hsi : d2.siIdx (ix2 s t) ⟨List.idxOf (0 : Fin 2) d2.scatterDimsToOperandDims,
      List.idxOf_lt_length_iff.2 (List.mem_singleton.mpr rfl)⟩ = ix2 s 0 := by
    funext b; refine Fin.ext ?_
    match b with
    | ⟨0, _⟩ => rfl
    | ⟨1, _⟩ => rfl
  rw [hsi]

/-- No group word names the operand's second axis: the start there is zero. -/
private theorem d2_start1 (idx : IVec S8192x1 32) (s : Fin 8192) (t : Fin 4096) :
    d2.start (ix2 s t) idx 1 = 0 := by
  unfold ScatterDims.start
  rw [dif_neg (show ¬ (1 : Fin 2) ∈ d2.scatterDimsToOperandDims from by decide)]

/-- The operand's first axis is an inserted one: its window coordinate is zero. -/
private theorem d2_window0 (s : Fin 8192) (t : Fin 4096) :
    d2.window (ix2 s t) 0 = 0 := by
  unfold ScatterDims.window
  rw [dif_neg (show ¬ (0 : Fin 2) ∈ d2.sKept from by decide)]

/-- The window coordinate on the operand's second axis is the update's second coordinate. -/
private theorem d2_window1 (s : Fin 8192) (t : Fin 4096) :
    d2.window (ix2 s t) 1 = t.val := by
  unfold ScatterDims.window
  rw [dif_pos (show (1 : Fin 2) ∈ d2.sKept from by decide)]
  rfl

/-- Update `(s, t)` lands on operand entry `(g, p)` exactly when `t = p` and source `s`'s group word reads `g`; a word outside
    the axis lands nowhere. -/
private theorem d2_result (idx : IVec S8192x1 32) (s : Fin 8192) (t p : Fin 4096) (g : Fin 1024) :
    d2.resultIdx? (ix2 s t) idx = some (ix2 g p) ↔ t = p ∧ (idx (ix2 s 0)).toInt = (g.val : Int) := by
  unfold ScatterDims.resultIdx?
  by_cases hc : ∀ a, 0 ≤ d2.start (ix2 s t) idx a + d2.window (ix2 s t) a ∧
      d2.start (ix2 s t) idx a + d2.window (ix2 s t) a < S1024x4096.size a
  · rw [dif_pos hc]
    constructor
    · intro h
      have h' := Option.some.inj h
      have e0 : (d2.start (ix2 s t) idx 0 + (d2.window (ix2 s t) 0 : Int)).toNat = g.val :=
        congrArg Fin.val (congrFun h' 0)
      have e1 : (d2.start (ix2 s t) idx 1 + (d2.window (ix2 s t) 1 : Int)).toNat = p.val :=
        congrArg Fin.val (congrFun h' 1)
      have h0 : 0 ≤ d2.start (ix2 s t) idx 0 + (d2.window (ix2 s t) 0 : Int) := (hc 0).1
      rw [d2_start0, d2_window0] at e0 h0
      rw [d2_start1, d2_window1] at e1
      exact ⟨Fin.ext (by omega), by omega⟩
    · rintro ⟨rfl, hq⟩
      congr 1; funext a
      match a with
      | ⟨0, _⟩ =>
        refine Fin.ext ?_
        show (d2.start (ix2 s t) idx 0 + (d2.window (ix2 s t) 0 : Int)).toNat = g.val
        rw [d2_start0, d2_window0]; omega
      | ⟨1, _⟩ =>
        refine Fin.ext ?_
        show (d2.start (ix2 s t) idx 1 + (d2.window (ix2 s t) 1 : Int)).toNat = t.val
        rw [d2_start1, d2_window1]; omega
  · rw [dif_neg hc]
    constructor
    · intro h; cases h
    · rintro ⟨rfl, hq⟩
      exfalso; apply hc; intro a
      match a with
      | ⟨0, _⟩ =>
        show 0 ≤ d2.start (ix2 s t) idx 0 + (d2.window (ix2 s t) 0 : Int) ∧
          d2.start (ix2 s t) idx 0 + (d2.window (ix2 s t) 0 : Int) < ((1024 : Nat) : Int)
        rw [d2_start0, d2_window0]; have := g.isLt; omega
      | ⟨1, _⟩ =>
        show 0 ≤ d2.start (ix2 s t) idx 1 + (d2.window (ix2 s t) 1 : Int) ∧
          d2.start (ix2 s t) idx 1 + (d2.window (ix2 s t) 1 : Int) < ((4096 : Nat) : Int)
        rw [d2_start1, d2_window1]; have := t.isLt; omega

/-- The second scatter at entry `(g, t)`: the operand's entry plus the updates `(s, t)` of the sources whose group word reads `g`. -/
private theorem scatter2_apply (x : FVec Ideal S1024x4096 .f32) (idx : IVec S8192x1 32) (upd : FVec Ideal S8192x4096 .f32)
    (g : Fin 1024) (t : Fin 4096) :
    Host.scatterAdd (F := Ideal) (φ := .f32) d2 x idx upd (ix2 g t)
      = x (ix2 g t) + ∑ s ∈ Finset.univ.filter (fun s : Fin 8192 => (idx (ix2 s 0)).toInt = (g.val : Int)), upd (ix2 s t) := by
  show Ideal.hostScatterAdd d2 x idx upd (ix2 g t) = _
  unfold Ideal.hostScatterAdd
  refine congrArg (x (ix2 g t) + ·) ?_
  rw [Finset.sum_filter, sum_idx2, Finset.sum_comm]
  simp only [d2_result]
  exact sum_pin t _ (fun b a => upd (ix2 a b))

/-! ## The operations before and between the scatters, read at an entry -/

/-- The wrapped index word of event `e`, as the first scatter reads it. -/
private theorem wrap_entry (x0 : IVec S16384 32) (e : Fin 16384) :
    Cert.ReferenceIdeal.Read.val_main_v19 (F := Ideal) x0 (ix2 e 0) = Cert.Spec.wrap (x0 (ix1 e)) := by
  have hi : Cert.ReferenceIdeal.Read.idx_main_v19 (ix2 e (0 : Fin 1)) = ix1 e := by
    funext a; match a with | ⟨0, _⟩ => rfl
  rw [Read.val_main_v19_apply, hi, Read.val_main_v18_apply, Read.val_main_v15_apply, Read.val_main_v14_apply,
    Read.val_main_c_apply, Read.val_main_v17_apply, Read.val_main_v16_apply, Read.val_main_c_1_apply]
  rfl

/-- The masked rate of event `e` at time `t`, as the first scatter's update. -/
private theorem mrate_entry (x1 x2 x3 : FVec Ideal S16384 .f32) (x4 : FVec Ideal S4096 .f32) (t : Fin 4096) (e : Fin 16384) :
    Cert.ReferenceIdeal.Read.val_main_v12 (F := Ideal) x1 x2 x3 x4 (ix2 t e)
      = Cert.Spec.mrate (x2 (ix1 e)) (x4 (ix1 t)) (x3 (ix1 e)) (x1 (ix1 e)) := by
  have h2 : Read.idx_main_v0 (Read.idx_main_v2 (ix2 t e)) = ix1 e := by
    funext a; match a with | ⟨0, _⟩ => rfl
  have h3 : Read.idx_main_v1 (Read.idx_main_v3 (ix2 t e)) = ix1 t := by
    funext a; match a with | ⟨0, _⟩ => rfl
  have h7 : Read.idx_main_v5 (Read.idx_main_v7 (ix2 t e)) = ix1 t := by
    funext a; match a with | ⟨0, _⟩ => rfl
  have h8 : Read.idx_main_v6 (Read.idx_main_v8 (ix2 t e)) = ix1 e := by
    funext a; match a with | ⟨0, _⟩ => rfl
  have h11 : Read.idx_main_v11 (Read.idx_main_call0_v0 (ix2 t e)) = ix1 e := by
    funext a; match a with | ⟨0, _⟩ => rfl
  rw [Read.val_main_v12_apply, Read.val_main_v10_apply, Read.val_main_v4_apply, Read.val_main_v9_apply,
    Read.val_main_v2_apply, Read.val_main_v0_apply, h2, Read.val_main_v3_apply, Read.val_main_v1_apply, h3,
    Read.val_main_v7_apply, Read.val_main_v5_apply, h7, Read.val_main_v8_apply, Read.val_main_v6_apply, h8,
    Read.val_main_call0_v0_apply, Read.val_main_v11_apply, h11,
    Read.val_main_call0_v1_apply, Read.val_main_cst_apply]
  show Scalar.select _ _ (Ideal.ofBits .f32 0x00000000#32) = _
  rw [Ideal.ofBits_zero_f32]
  rfl

/-- The first scatter's operand is zero at every entry. -/
private theorem zero1_entry (i : S4096x8192.Idx) : Cert.ReferenceIdeal.Read.val_main_v20 (F := Ideal) i = 0 := by
  rw [Read.val_main_v20_apply, Read.val_main_v13_apply, Read.val_main_cst_0_apply]
  exact Ideal.ofBits_zero_f32

/-- The second scatter's operand is zero at every entry. -/
private theorem zero2_entry (i : S1024x4096.Idx) : Cert.ReferenceIdeal.Read.val_main_v26 (F := Ideal) i = 0 := by
  rw [Read.val_main_v26_apply, Read.val_main_cst_2_apply]
  exact Ideal.ofBits_zero_f32

/-- Entry `(t, s)` of the first scatter's result is the specification's per-source sum. -/
private theorem x_entry (x0 : IVec S16384 32) (x1 x2 x3 : FVec Ideal S16384 .f32) (x4 : FVec Ideal S4096 .f32)
    (t : Fin 4096) (s : Fin 8192) :
    Cert.ReferenceIdeal.Read.val_main_v21 (F := Ideal) x0 x1 x2 x3 x4 (ix2 t s)
      = Cert.Spec.X (fun t => x4 (ix1 t)) (fun e => x2 (ix1 e)) (fun e => x3 (ix1 e)) (fun e => x1 (ix1 e))
          (fun e => x0 (ix1 e)) t s := by
  unfold Read.val_main_v21 Cert.Spec.X
  rw [scatter1_apply, zero1_entry]
  simp only [wrap_entry, mrate_entry]

/-- Entry `(s, t)` of the second scatter's update is the per-source sum times the source's weight. -/
private theorem upd2_entry (x0 : IVec S16384 32) (x1 x2 x3 : FVec Ideal S16384 .f32) (x4 : FVec Ideal S4096 .f32)
    (x6 : FVec Ideal S8192 .f32) (s : Fin 8192) (t : Fin 4096) :
    Cert.ReferenceIdeal.Read.val_main_v25 (F := Ideal) x0 x1 x2 x3 x4 x6 (ix2 s t)
      = Cert.Spec.X (fun t => x4 (ix1 t)) (fun e => x2 (ix1 e)) (fun e => x3 (ix1 e)) (fun e => x1 (ix1 e))
          (fun e => x0 (ix1 e)) t s * x6 (ix1 s) := by
  have h25 : Read.idx_main_v25 (ix2 s t) = ix2 t s := by
    funext a; match a with | ⟨0, _⟩ => rfl | ⟨1, _⟩ => rfl
  have h23 : Read.idx_main_v22 (Read.idx_main_v23 (ix2 t s)) = ix1 s := by
    funext a; match a with | ⟨0, _⟩ => rfl
  rw [Read.val_main_v25_apply, h25, Read.val_main_v24_apply, x_entry, Read.val_main_v23_apply, Read.val_main_v22_apply, h23]
  rfl

/-- The group word of source `s`, as the second scatter reads it. -/
private theorem gid_entry (x5 : IVec S8192 32) (s : Fin 8192) :
    Cert.ReferenceIdeal.Read.val_main_v27 (F := Ideal) x5 (ix2 s 0) = x5 (ix1 s) := by
  have hi : Read.idx_main_v27 (ix2 s (0 : Fin 1)) = ix1 s := by
    funext a; match a with | ⟨0, _⟩ => rfl
  rw [Read.val_main_v27_apply, hi]

/-- Entry `(t, g)` of the reference's result is the specification's nested sum. -/
theorem ref_apply (x0 : IVec S16384 32) (x1 x2 x3 : FVec Ideal S16384 .f32) (x4 : FVec Ideal S4096 .f32) (x5 : IVec S8192 32)
    (x6 : FVec Ideal S8192 .f32) (t : Fin 4096) (g : Fin 1024) :
    Cert.ReferenceIdeal.Read.val_main_v29 (F := Ideal) x0 x1 x2 x3 x4 x5 x6 (ix2 t g)
      = Cert.Spec.R (fun t => x4 (ix1 t)) (fun e => x2 (ix1 e)) (fun e => x3 (ix1 e)) (fun e => x1 (ix1 e))
          (fun e => x0 (ix1 e)) (fun s => x5 (ix1 s)) (fun s => x6 (ix1 s)) t g := by
  have h29 : Read.idx_main_v29 (ix2 t g) = ix2 g t := by
    funext a; match a with | ⟨0, _⟩ => rfl | ⟨1, _⟩ => rfl
  rw [Read.val_main_v29_apply, h29]
  unfold Read.val_main_v28 Cert.Spec.R
  rw [scatter2_apply, zero2_entry]
  simp only [gid_entry, upd2_entry]

end Cert.ReferenceIdeal.RefValue

end
-- ==== Proof.Algebra.lean ====
/-
  The one law that joins the two arrangements. With every index in range each event lands on exactly one source, and with every
  group word in range each source lands on exactly one group; with the rates and the weights finite every term is a real number,
  where multiplication distributes over the finite sums. So the weighted sum over a group's sources of the sums over a source's
  events is the single sum over all events of masked rate times the weight of the event's source when that source's group is
  the group and zero otherwise.
-/
import proofs.«420838_j60644938219534_3_alg».proof.Proof.Spec
import Mathlib.Data.EReal.Basic
import Mathlib.Data.EReal.Operations
import Mathlib.Algebra.BigOperators.Ring.Finset

noncomputable section

namespace Cert.Spec

open Idealize.ShloMosaic

/-- The coercion of a finite sum of reals is the sum of the coercions. -/
private theorem coe_sum {ι : Type} (S : Finset ι) (f : ι → ℝ) :
    ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The regrouping over the reals: sources of a class, each carrying the sum of its events, against all events. -/
private theorem regroup_real {ι σ : Type} [Fintype ι] [Fintype σ] [DecidableEq σ]
    (a : ι → ℝ) (w : σ → ℝ) (f : ι → σ) (P : σ → Prop) [DecidablePred P] :
    ∑ s ∈ Finset.univ.filter P, (∑ e ∈ Finset.univ.filter (fun e => f e = s), a e) * w s
      = ∑ e, a e * (if P (f e) then w (f e) else 0) := by
  calc ∑ s ∈ Finset.univ.filter P, (∑ e ∈ Finset.univ.filter (fun e => f e = s), a e) * w s
      = ∑ s, ∑ e, (if f e = s then a e * (if P s then w s else 0) else 0) := by
        rw [Finset.sum_filter]
        refine Finset.sum_congr rfl fun s _ => ?_
        rw [Finset.sum_filter, Finset.sum_mul]
        by_cases hP : P s
        · simp only [hP, if_true, ite_mul, zero_mul]
        · simp only [hP, if_false, mul_zero, ite_self, Finset.sum_const_zero]
    _ = ∑ e, ∑ s, (if f e = s then a e * (if P s then w s else 0) else 0) := Finset.sum_comm
    _ = ∑ e, a e * (if P (f e) then w (f e) else 0) := by
        refine Finset.sum_congr rfl fun e _ => ?_
        rw [Finset.sum_ite_eq]
        simp only [Finset.mem_univ, if_true]

/-- The same regrouping among the coercions of reals, with the two leading zeros of the reference's sums. -/
private theorem regroup {ι σ : Type} [Fintype ι] [Fintype σ] [DecidableEq σ]
    (a : ι → ℝ) (w : σ → ℝ) (f : ι → σ) (P : σ → Prop) [DecidablePred P] :
    (0 : EReal) + ∑ s ∈ Finset.univ.filter P,
        ((0 : EReal) + ∑ e ∈ Finset.univ.filter (fun e => f e = s), (a e : EReal)) * (w s : EReal)
      = ∑ e, (a e : EReal) * (if P (f e) then (w (f e) : EReal) else 0) := by
  have hR : ∀ e, (a e : EReal) * (if P (f e) then (w (f e) : EReal) else 0)
      = ((a e * (if P (f e) then w (f e) else 0) : ℝ) : EReal) := by
    intro e
    by_cases hP : P (f e)
    · simp only [hP, if_true, EReal.coe_mul]
    · simp only [hP, if_false, mul_zero, EReal.coe_zero]
  simp only [hR, zero_add, ← coe_sum, ← EReal.coe_mul]
  rw [regroup_real]

/-- A masked rate is the rate or zero. -/
private theorem mrate_cases (st t0 et r : EReal) : mrate st t0 et r = r ∨ mrate st t0 et r = 0 := by
  unfold mrate Scalar.select
  split_ifs
  · exact Or.inl rfl
  · exact Or.inr rfl

/-- A non-negative index word is read as it stands. -/
private theorem wrap_of_nonneg (i : BitVec 32) (h : 0 ≤ i.toInt) : wrap i = i := by
  have hs : i.slt 0#32 = false := by
    rw [BitVec.slt_eq_decide]
    simpa using h
  unfold wrap Scalar.select IntOp.cmpi
  simp [hs]

/-- An in-range index word reads a source exactly when it names it. -/
private theorem toInt_eq_iff_src (i : BitVec 32) (h : 0 ≤ i.toInt ∧ i.toInt < 8192) (s : Fin 8192) :
    i.toInt = (s.val : Int) ↔ src i = s := by
  have hlt := i.isLt
  have hc := BitVec.toInt_eq_toNat_cond i
  unfold src
  rw [Fin.ext_iff]
  simp only
  split_ifs at hc <;> omega

/-- The word of a group reads, as a signed word, the group's number. -/
private theorem toInt_ofNat_group (g : Fin 1024) : (BitVec.ofNat 32 g.val).toInt = (g.val : Int) := by
  have hg := g.isLt
  have hc := BitVec.toInt_eq_toNat_cond (BitVec.ofNat 32 g.val)
  rw [BitVec.toNat_ofNat] at hc
  split_ifs at hc <;> omega

/-- The group weight, told by the signed reading of the group word. -/
private theorem hot_eq (g : Fin 1024) (ge : BitVec 32) (we : EReal) :
    hot g ge we = if ge.toInt = (g.val : Int) then we else 0 := by
  have hiff : BitVec.ofNat 32 g.val = ge ↔ ge.toInt = (g.val : Int) := by
    rw [← toInt_ofNat_group g, BitVec.toInt_inj, eq_comm]
  unfold hot Scalar.select IntOp.cmpi
  by_cases hh : BitVec.ofNat 32 g.val = ge
  · have h2 := hiff.mp hh
    simp [hh, h2]
  · have h2 : ¬ ge.toInt = (g.val : Int) := fun h => hh (hiff.mpr h)
    have hb : (BitVec.ofNat 32 g.val == ge) = false := beq_eq_false_iff_ne.mpr hh
    simp [hb, h2]

/-- The reference's arrangement equals the kernel's, for in-range indices and finite rates and weights. -/
theorem R_eq_G (t0 : Fin 4096 → EReal) (st et rate : Fin 16384 → EReal) (idx : Fin 16384 → BitVec 32) (gid : Fin 8192 → BitVec 32)
    (w : Fin 8192 → EReal)
    (hidx : ∀ e, 0 ≤ (idx e).toInt ∧ (idx e).toInt < 8192) (hgid : ∀ s, 0 ≤ (gid s).toInt ∧ (gid s).toInt < 1024)
    (hrate : ∀ e, rate e ≠ ⊤ ∧ rate e ≠ ⊥) (hw : ∀ s, w s ≠ ⊤ ∧ w s ≠ ⊥) (t : Fin 4096) (g : Fin 1024) :
    R t0 st et rate idx gid w t g = G t0 st et rate (fun e => gid (src (idx e))) (fun e => w (src (idx e))) t g := by
  -- every masked rate and every weight is the coercion of a real number
  have hm : ∀ e, ∃ x : ℝ, mrate (st e) (t0 t) (et e) (rate e) = (x : EReal) := by
    intro e
    rcases mrate_cases (st e) (t0 t) (et e) (rate e) with h | h
    · exact ⟨(rate e).toReal, by rw [h, EReal.coe_toReal (hrate e).1 (hrate e).2]⟩
    · exact ⟨0, by rw [h, EReal.coe_zero]⟩
  choose a ha using hm
  have hwx : ∀ s, ∃ x : ℝ, w s = (x : EReal) :=
    fun s => ⟨(w s).toReal, (EReal.coe_toReal (hw s).1 (hw s).2).symm⟩
  choose wr hwr using hwx
  -- the events read at a source are the events that name it
  have hX : ∀ s : Fin 8192,
      Finset.univ.filter (fun e : Fin 16384 => (wrap (idx e)).toInt = (s.val : Int))
        = Finset.univ.filter (fun e : Fin 16384 => src (idx e) = s) := by
    intro s
    refine Finset.filter_congr fun e _ => ?_
    rw [wrap_of_nonneg (idx e) (hidx e).1]
    exact toInt_eq_iff_src (idx e) (hidx e) s
  unfold R X G
  simp only [hX, ha, hwr]
  rw [regroup a wr (fun e => src (idx e)) (fun s => (gid s).toInt = (g.val : Int))]
  refine Finset.sum_congr rfl fun e _ => ?_
  rw [hot_eq]

end Cert.Spec

end
-- ==== Proof.lean ====
/-
  The certificate's five conjuncts. The kernel computes, for each segment time `t` and group `g`, the sum over the events active
  at `t` of the event's rate times the weight of the event's source when that source belongs to `g`; it does so tile by tile
  (8 row tiles by 8 event tiles, a one-hot-times-weight matrix contracted with the masked rates, accumulated over the event
  tiles). The reference scatters the masked rates onto the sources, weights them, and sums the sources of each group. Over
  finite rates and weights, indices in `[0, 8192)` and group words in `[0, 1024)` — the precondition — the two are one function
  of the arguments (Algebra.lean's law). The three frames are the generated runs; nothing was rewritten by the idealization.
-/
import proofs.«420838_j60644938219534_3_alg».proof.Defs
import proofs.«420838_j60644938219534_3_alg».proof.Proof.Gen.Kernel
import proofs.«420838_j60644938219534_3_alg».proof.Proof.Gen.Kernel.Skeleton
import proofs.«420838_j60644938219534_3_alg».proof.Proof.Gen.Kernel.Launch
import proofs.«420838_j60644938219534_3_alg».proof.Proof.Gen.Kernel.Points
import proofs.«420838_j60644938219534_3_alg».proof.Proof.Gen.Kernel.Frame
import proofs.«420838_j60644938219534_3_alg».proof.Proof.Gen.KernelIdeal
import proofs.«420838_j60644938219534_3_alg».proof.Proof.Gen.KernelIdeal.Skeleton
import proofs.«420838_j60644938219534_3_alg».proof.Proof.Gen.KernelIdeal.Launch
import proofs.«420838_j60644938219534_3_alg».proof.Proof.Gen.KernelIdeal.Points
import proofs.«420838_j60644938219534_3_alg».proof.Proof.Gen.KernelIdeal.Frame
import proofs.«420838_j60644938219534_3_alg».proof.Proof.Gen.ReferenceIdeal
import proofs.«420838_j60644938219534_3_alg».proof.Proof.Gen.Pre_finite_inputs
import proofs.«420838_j60644938219534_3_alg».proof.Proof.Gen.KernelIdeal.Value
import proofs.«420838_j60644938219534_3_alg».proof.Proof.Gen.ReferenceIdeal.Run
import proofs.«420838_j60644938219534_3_alg».proof.Proof.Gen.ReferenceIdeal.Read
import proofs.«420838_j60644938219534_3_alg».proof.Proof.KFinal
import proofs.«420838_j60644938219534_3_alg».proof.Proof.KHost
import proofs.«420838_j60644938219534_3_alg».proof.Proof.PreDecode
import proofs.«420838_j60644938219534_3_alg».proof.Proof.RefValue
import proofs.«420838_j60644938219534_3_alg».proof.Proof.Algebra
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the specification of the kernel's arguments: the kernel's by its value leg, the reference's because its
    nested sums are the specification where the precondition holds. -/
theorem algebraic : Cert.algebraic_KernelIdeal_ReferenceIdeal := by
  intro m ρ m' ρ' hpre hagree
  refine ⟨fun c => Cert.KernelIdeal.Bridge.KG m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨hidx, hgid, hrate, hw⟩ := Cert.PreFacts.decode _ _ _ _ _ _ _ (hpre c)
  rw [Cert.ReferenceIdeal.Read.val_main_v29_eq, (hagree c).1, (hagree c).2.1, (hagree c).2.2.1, (hagree c).2.2.2.1,
    (hagree c).2.2.2.2.1, (hagree c).2.2.2.2.2.1, (hagree c).2.2.2.2.2.2]
  funext i
  obtain ⟨t, g, rfl⟩ : ∃ (t : Fin 4096) (g : Fin 1024), i = ix2 t g := ⟨i 0, i 1, eq_ix2 i⟩
  rw [Cert.ReferenceIdeal.RefValue.ref_apply, Cert.Spec.R_eq_G _ _ _ _ _ _ _ hidx hgid hrate hw]
  show _ = Cert.Spec.G _ _ _ _ _ _ t g
  rw [Cert.KernelIdeal.Bridge.aT0_eq, Cert.KernelIdeal.Bridge.aSt_eq, Cert.KernelIdeal.Bridge.aEt_eq,
    Cert.KernelIdeal.Bridge.aRate_eq, Cert.KernelIdeal.Bridge.aGe_eq m c hidx hgid, Cert.KernelIdeal.Bridge.aWe_eq m c hidx]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
